-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x8192 : Shape := ⟨2, ![16, 8192]⟩
abbrev S1024x28672 : Shape := ⟨2, ![1024, 28672]⟩
abbrev S64x28672 : Shape := ⟨2, ![64, 28672]⟩
abbrev S_ : Shape := ⟨0, ![]⟩

class Facts : Prop where
  bcast_S_S16x8192 : S_.BroadcastsInDim S16x8192 (![] : Fin 0 → Fin S16x8192.rank)
  reducesTo_S16x8192_S_d0_1 : S16x8192.ReducesTo [0, 1] S_
  h_S_ : 0 < S_.numel
  bcast_S_S64x28672 : S_.BroadcastsInDim S64x28672 (![] : Fin 0 → Fin S64x28672.rank)
  reducesTo_S64x28672_S_d0_1 : S64x28672.ReducesTo [0, 1] S_

variable [Facts]

def fn {F : FTy → Type} [FloatOps F] (main_arg0 : FVec F S16x8192 .f32) (main_arg1 : IVec S1024x28672 32) (main_arg2 : FVec F S64x28672 .f32) : IVec S_ 1 :=
  let main_v0 : FVec F S16x8192 .f32 := Host.absf main_arg0
  let main_cst : FVec F S_ .f32 := constant S_ .f32 0x7F800000#32
  let main_v1 : FVec F S16x8192 .f32 := broadcastInDim S16x8192 ![] bcast_S_S16x8192 main_cst
  let main_v2 : IVec S16x8192 1 := cmpf .olt main_v0 main_v1
  let main_c : IVec S_ 1 := constantI S_ 1 1#1
  let main_v3 : IVec S_ 1 := (fun x v => Host.reduce IntOp.andi x v reducesTo_S16x8192_S_d0_1 h_S_) main_v2 main_c
  let main_v4 : FVec F S64x28672 .f32 := Host.absf main_arg2
  let main_cst_0 : FVec F S_ .f32 := constant S_ .f32 0x7F800000#32
  let main_v5 : FVec F S64x28672 .f32 := broadcastInDim S64x28672 ![] bcast_S_S64x28672 main_cst_0
  let main_v6 : IVec S64x28672 1 := cmpf .olt main_v4 main_v5
  let main_c_1 : IVec S_ 1 := constantI S_ 1 1#1
  let main_v7 : IVec S_ 1 := (fun x v => Host.reduce IntOp.andi x v reducesTo_S64x28672_S_d0_1 h_S_) main_v6 main_c_1
  let main_v8 : IVec S_ 1 := andi main_v3 main_v7
  main_v8
-- ==== Kernel.lean ====
abbrev S16x8192 : Shape := ⟨2, ![16, 8192]⟩
abbrev S1024x28672 : Shape := ⟨2, ![1024, 28672]⟩
abbrev S64x28672 : Shape := ⟨2, ![64, 28672]⟩
abbrev S16x64x128 : Shape := ⟨3, ![16, 64, 128]⟩
abbrev S_ : Shape := ⟨0, ![]⟩
abbrev S16x64 : Shape := ⟨2, ![16, 64]⟩
abbrev S16x28672 : Shape := ⟨2, ![16, 28672]⟩
abbrev S16x8x128x8 : Shape := ⟨4, ![16, 8, 128, 8]⟩
abbrev S16x8x8x128 : Shape := ⟨4, ![16, 8, 8, 128]⟩
abbrev S16x1024 : Shape := ⟨2, ![16, 1024]⟩
abbrev S128x1792 : Shape := ⟨2, ![128, 1792]⟩
abbrev S8x1792 : Shape := ⟨2, ![8, 1792]⟩
abbrev S16x1792 : Shape := ⟨2, ![16, 1792]⟩
abbrev S8x1x1792 : Shape := ⟨3, ![8, 1, 1792]⟩
abbrev S8x16x1792 : Shape := ⟨3, ![8, 16, 1792]⟩
abbrev S1024x1792 : Shape := ⟨2, ![1024, 1792]⟩

abbrev nBuf : Space → Nat
  | .hbm => 17
  | .vmem => 9
  | .smem => 0
  | _ => 0

abbrev bufTy : (tb : Table) → Fin (tcTables nBuf tb) → BufTy
  | .hbm, ⟨0, _⟩ => ⟨S16x8192, .f32⟩
  | .hbm, ⟨1, _⟩ => ⟨S1024x28672, .i32⟩
  | .hbm, ⟨2, _⟩ => ⟨S64x28672, .f32⟩
  | .hbm, ⟨3, _⟩ => ⟨S16x64x128, .f32⟩
  | .hbm, ⟨4, _⟩ => ⟨S_, .f32⟩
  | .hbm, ⟨5, _⟩ => ⟨S16x64, .f32⟩
  | .hbm, ⟨6, _⟩ => ⟨S16x28672, .f32⟩
  | .hbm, ⟨7, _⟩ => ⟨S_, .f32⟩
  | .hbm, ⟨8, _⟩ => ⟨S16x28672, .f32⟩
  | .hbm, ⟨9, _⟩ => ⟨S16x28672, .f32⟩
  | .hbm, ⟨10, _⟩ => ⟨S16x8x128x8, .f32⟩
  | .hbm, ⟨11, _⟩ => ⟨S16x8x8x128, .f32⟩
  | .hbm, ⟨12, _⟩ => ⟨S16x8192, .f32⟩
  | .hbm, ⟨13, _⟩ => ⟨S16x8192, .bf16⟩
  | .hbm, ⟨14, _⟩ => ⟨S64x28672, .bf16⟩
  | .hbm, ⟨15, _⟩ => ⟨S16x28672, .f32⟩
  | .hbm, ⟨16, _⟩ => ⟨S16x28672, .f32⟩
  | .local _ .vmem, ⟨0, _⟩ => ⟨S16x1024, .bf16⟩
  | .local _ .vmem, ⟨1, _⟩ => ⟨S16x1024, .bf16⟩
  | .local _ .vmem, ⟨2, _⟩ => ⟨S128x1792, .i32⟩
  | .local _ .vmem, ⟨3, _⟩ => ⟨S128x1792, .i32⟩
  | .local _ .vmem, ⟨4, _⟩ => ⟨S8x1792, .bf16⟩
  | .local _ .vmem, ⟨5, _⟩ => ⟨S8x1792, .bf16⟩
  | .local _ .vmem, ⟨6, _⟩ => ⟨S16x1792, .f32⟩
  | .local _ .vmem, ⟨7, _⟩ => ⟨S16x1792, .f32⟩
  | .local _ .vmem, ⟨8, _⟩ => ⟨S16x1792, .f32⟩
  | _, _ => ⟨S16x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 8], ![false, false]⟩

def k0_cond2 (i : grid0.Coords) : BitVec 1 :=
  let arg1 : BitVec 32 := BitVec.ofNat 32 (i 1).val
  let c7_i32 : BitVec 32 := 7#32
  let v67 : BitVec 1 := Scalar.cmpi .eq arg1 c7_i32
  let v68 : BitVec 32 := Scalar.extui v67
  let c0_i32_18 : BitVec 32 := 0#32
  let v69 : BitVec 1 := Scalar.cmpi .ne v68 c0_i32_18
  v69

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S16x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S128x1792 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x1792 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S16x1792 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  shapeCasts_S16x8192_S16x64x128 : S16x8192.ShapeCasts S16x64x128
  reducesTo_S16x64x128_S16x64_d2 : S16x64x128.ReducesTo [2] S16x64
  h_S_ : 0 < S_.numel
  bcast_S_S16x28672 : S_.BroadcastsInDim S16x28672 (![] : Fin 0 → Fin S16x28672.rank)
  shapeCasts_S16x8192_S16x8x128x8 : S16x8192.ShapeCasts S16x8x128x8
  transposes_S16x8x128x8_S16x8x8x128_0_1_3_2 : S16x8x128x8.Transposes [0, 1, 3, 2] S16x8x8x128
  shapeCasts_S16x8x8x128_S16x8192 : S16x8x8x128.ShapeCasts S16x8192
  bitsLt_bf16_f32 : FTy.bits .bf16 < FTy.bits .f32
  inb_S16x1792_S16x1792_0_0 : ∀ a, (![0, 0] : Fin 2 → Nat) a + S16x1792.size a ≤ S16x1792.size a
  h_S16x1792 : 0 < S16x1792.numel
  shapeCasts_S16x1792_S16x1792 : S16x1792.ShapeCasts S16x1792
  inb_S128x1792_S128x1792_0_0 : ∀ a, (![0, 0] : Fin 2 → Nat) a + S128x1792.size a ≤ S128x1792.size a
  h_S128x1792 : 0 < S128x1792.numel
  inb_S8x1792_S8x1792_0_0 : ∀ a, (![0, 0] : Fin 2 → Nat) a + S8x1792.size a ≤ S8x1792.size a
  h_S8x1792 : 0 < S8x1792.numel
  shapeCasts_S8x1792_S8x1792 : S8x1792.ShapeCasts S8x1792
  shapeCasts_S8x1792_S8x1x1792 : S8x1792.ShapeCasts S8x1x1792
  shapeCasts_S8x1x1792_S8x1x1792 : S8x1x1792.ShapeCasts S8x1x1792
  broadcasts_S8x1x1792_S8x16x1792 : S8x1x1792.Broadcasts S8x16x1792
  shapeCasts_S8x16x1792_S128x1792 : S8x16x1792.ShapeCasts S128x1792
  concatenates_S128x1792_S128x1792_S128x1792_S128x1792_S128x1792_S128x1792_S128x1792_S128x1792_S1024x1792_d0 : Shape.Concatenates [S128x1792, S128x1792, S128x1792, S128x1792, S128x1792, S128x1792, S128x1792, S128x1792] S1024x1792 0
  inb_S16x1024_S16x1024_0_0 : ∀ a, (![0, 0] : Fin 2 → Nat) a + S16x1024.size a ≤ S16x1024.size a
  h_S16x1024 : 0 < S16x1024.numel
  shapeCasts_S16x1024_S16x1024 : S16x1024.ShapeCasts S16x1024
  dot_S16x64_S64x28672_S16x28672_1_0_0_1_n_n_wf : DotDims.WF S16x64 S64x28672 S16x28672 [1] [0] [0] [1] [] []
  dot_S16x1024_S1024x1792_S16x1792_1_0_0_1_n_n_wf : DotDims.WF S16x1024 S1024x1792 S16x1792 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x1024.size a ≤ S16x8192.size a
  hwx0_0 : ∀ i : grid0.Coords, EltTy.bits .bf16 = 32 ∨ (Rect.block (s := S16x8192) S16x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x1792.size a ≤ S1024x28672.size a
  hwx0_1 : ∀ i : grid0.Coords, EltTy.bits .i32 = 32 ∨ (Rect.block (s := S1024x28672) S128x1792.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x1792.size a ≤ S64x28672.size a
  hwx0_2 : ∀ i : grid0.Coords, EltTy.bits .bf16 = 32 ∨ (Rect.block (s := S64x28672) S8x1792.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16x1792.size a ≤ S16x28672.size a
  hwx0_3 : ∀ i : grid0.Coords, EltTy.bits .f32 = 32 ∨ (Rect.block (s := S16x28672) S16x1792.size (cc0_transform_3 i) (hinb0_3 i)).WholeWords (EltTy.packing .f32)

variable [Facts₀]

def dot_S16x64_S64x28672_S16x28672_1_0_0_1_n_n : DotDims S16x64 S64x28672 S16x28672 where
  lhsContracting := [1]
  rhsContracting := [0]
  lhsNonContracting := [0]
  rhsNonContracting := [1]
  lhsBatch := []
  rhsBatch := []
  wf := dot_S16x64_S64x28672_S16x28672_1_0_0_1_n_n_wf
def dot_S16x1024_S1024x1792_S16x1792_1_0_0_1_n_n : DotDims S16x1024 S1024x1792 S16x1792 where
  lhsContracting := [1]
  rhsContracting := [0]
  lhsNonContracting := [0]
  rhsNonContracting := [1]
  lhsBatch := []
  rhsBatch := []
  wf := dot_S16x1024_S1024x1792_S16x1792_1_0_0_1_n_n_wf

abbrev win0_0 : Pipeline.Window sig grid0 :=
  Pipeline.Window.ofSpec (Memref.whole main_v8) S16x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x1792.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v9) S8x1792.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v10) S16x1792.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S16x8192 : Shape := ⟨2, ![16, 8192]⟩
abbrev S1024x28672 : Shape := ⟨2, ![1024, 28672]⟩
abbrev S64x28672 : Shape := ⟨2, ![64, 28672]⟩
abbrev S8 : Shape := ⟨1, ![8]⟩
abbrev S_ : Shape := ⟨0, ![]⟩
abbrev S1024x1x28672 : Shape := ⟨3, ![1024, 1, 28672]⟩
abbrev S1x8x1 : Shape := ⟨3, ![1, 8, 1]⟩
abbrev S1024x8x28672 : Shape := ⟨3, ![1024, 8, 28672]⟩
abbrev S8192x28672 : Shape := ⟨2, ![8192, 28672]⟩
abbrev S64x128x28672 : Shape := ⟨3, ![64, 128, 28672]⟩
abbrev S16x28672 : Shape := ⟨2, ![16, 28672]⟩

abbrev nBuf : Space → Nat
  | .hbm => 24
  | .vmem => 0
  | .smem => 0
  | _ => 0

abbrev bufTy : (tb : Table) → Fin (tcTables nBuf tb) → BufTy
  | .hbm, ⟨0, _⟩ => ⟨S16x8192, .f32⟩
  | .hbm, ⟨1, _⟩ => ⟨S1024x28672, .i32⟩
  | .hbm, ⟨2, _⟩ => ⟨S64x28672, .f32⟩
  | .hbm, ⟨3, _⟩ => ⟨S8, .i32⟩
  | .hbm, ⟨4, _⟩ => ⟨S_, .i32⟩
  | .hbm, ⟨5, _⟩ => ⟨S8, .i32⟩
  | .hbm, ⟨6, _⟩ => ⟨S8, .i32⟩
  | .hbm, ⟨7, _⟩ => ⟨S1024x1x28672, .i32⟩
  | .hbm, ⟨8, _⟩ => ⟨S1x8x1, .i32⟩
  | .hbm, ⟨9, _⟩ => ⟨S1024x8x28672, .i32⟩
  | .hbm, ⟨10, _⟩ => ⟨S1024x8x28672, .i32⟩
  | .hbm, ⟨11, _⟩ => ⟨S1024x8x28672, .i32⟩
  | .hbm, ⟨12, _⟩ => ⟨S_, .i32⟩
  | .hbm, ⟨13, _⟩ => ⟨S1024x8x28672, .i32⟩
  | .hbm, ⟨14, _⟩ => ⟨S1024x8x28672, .i32⟩
  | .hbm, ⟨15, _⟩ => ⟨S8192x28672, .i32⟩
  | .hbm, ⟨16, _⟩ => ⟨S8192x28672, .f32⟩
  | .hbm, ⟨17, _⟩ => ⟨S_, .f32⟩
  | .hbm, ⟨18, _⟩ => ⟨S8192x28672, .f32⟩
  | .hbm, ⟨19, _⟩ => ⟨S8192x28672, .f32⟩
  | .hbm, ⟨20, _⟩ => ⟨S64x128x28672, .f32⟩
  | .hbm, ⟨21, _⟩ => ⟨S8192x28672, .f32⟩
  | .hbm, ⟨22, _⟩ => ⟨S8192x28672, .f32⟩
  | .hbm, ⟨23, _⟩ => ⟨S16x28672, .f32⟩
  | _, _ => ⟨S16x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]

class Facts₀ : Prop where
  bcast_S_S8 : S_.BroadcastsInDim S8 (![] : Fin 0 → Fin S8.rank)
  bcast_S1024x28672_S1024x1x28672_0_2 : S1024x28672.BroadcastsInDim S1024x1x28672 (![0, 2] : Fin 2 → Fin S1024x1x28672.rank)
  bcast_S8_S1x8x1_1 : S8.BroadcastsInDim S1x8x1 (![1] : Fin 1 → Fin S1x8x1.rank)
  bcast_S1024x1x28672_S1024x8x28672_0_1_2 : S1024x1x28672.BroadcastsInDim S1024x8x28672 (![0, 1, 2] : Fin 3 → Fin S1024x8x28672.rank)
  bcast_S1x8x1_S1024x8x28672_0_1_2 : S1x8x1.BroadcastsInDim S1024x8x28672 (![0, 1, 2] : Fin 3 → Fin S1024x8x28672.rank)
  bcast_S_S1024x8x28672 : S_.BroadcastsInDim S1024x8x28672 (![] : Fin 0 → Fin S1024x8x28672.rank)
  shapeCasts_S1024x8x28672_S8192x28672 : S1024x8x28672.ShapeCasts S8192x28672
  bcast_S_S8192x28672 : S_.BroadcastsInDim S8192x28672 (![] : Fin 0 → Fin S8192x28672.rank)
  bcast_S64x28672_S64x128x28672_0_2 : S64x28672.BroadcastsInDim S64x128x28672 (![0, 2] : Fin 2 → Fin S64x128x28672.rank)
  shapeCasts_S64x128x28672_S8192x28672 : S64x128x28672.ShapeCasts S8192x28672
  dot_S16x8192_S8192x28672_S16x28672_1_0_0_1_n_n_wf : DotDims.WF S16x8192 S8192x28672 S16x28672 [1] [0] [0] [1] [] []

variable [Facts₀]

def dot_S16x8192_S8192x28672_S16x28672_1_0_0_1_n_n : DotDims S16x8192 S8192x28672 S16x28672 where
  lhsContracting := [1]
  rhsContracting := [0]
  lhsNonContracting := [0]
  rhsNonContracting := [1]
  lhsBatch := []
  rhsBatch := []
  wf := dot_S16x8192_S8192x28672_S16x28672_1_0_0_1_n_n_wf

class Facts : Prop extends Facts₀ where

variable [Facts]
-- ==== Proof.Spec.lean ====
/-
  A linear layer whose weights are stored four bits at a time. A weight matrix of 8192 rows and 28672 columns is
  packed eight rows to a 32-bit word (row k sits in bits 4·(k mod 8) … 4·(k mod 8)+3 of word k / 8), and every run
  of 128 consecutive rows shares one scale per column. The layer's value at (p, n) is

      ∑ k, x (p, k) · ((field k n − 8) · s (k / 128, n)).

  This file states that value, the rearrangement a blocked evaluation computes instead —

      (∑ k, x (p, k) · (field k n · s (k / 128, n)))  −  8 · ∑ g, (∑ j < 128, x (p, 128 g + j)) · s (g, n)

  — and proves the two equal when x and s are real-valued: distributing the product over the difference, splitting
  the sum of differences and pulling 8 · s (g, n) out of each run of 128 rows are laws of the reals that fail at
  the infinities. It also proves what holds on all extended reals: a sum over the 8192 rows may be taken in eight
  blocks of 1024, each block visiting its rows in the order "all rows with k mod 8 = 0, then all with k mod 8 = 1, …",
  and a running total started from zero and fed the eight block sums one after the other ends at the whole sum.
-/
import Idealize.ShloMosaic.PureOps.Ideal
import Idealize.ShloMosaic.PureOps.Ideal.Laws
import Idealize.ShloMosaic.Lib.ValueIdx
import Mathlib.Algebra.BigOperators.Fin
import Mathlib.Logic.Equiv.Fin.Basic
import Mathlib.Tactic.Ring
import Mathlib.Tactic.NormNum

noncomputable section

open scoped BigOperators

namespace Cert.Quant

open Idealize.ShloMosaic Idealize.ShloMosaic.ValueIdx

/-! ## Sums: the image of a real sum, a sum in blocks, a sum in the packed order -/

/-- The image in the extended reals of a finite sum of reals is the sum of the images. -/
theorem coe_sum {ι : Type} (t : Finset ι) (g : ι → ℝ) :
    ∑ i ∈ t, ((g i : ℝ) : EReal) = ((∑ i ∈ t, g i : ℝ) : EReal) := by
  classical
  induction t using Finset.induction_on with
  | empty => simp
  | insert a t ha ih => rw [Finset.sum_insert ha, Finset.sum_insert ha, EReal.coe_add, ih]

/-- A sum over N = m · n consecutive numbers, taken as m runs of n. -/
theorem sum_runs {A : Type} [AddCommMonoid A] (m n N : ℕ) (h : m * n = N) (g : Fin N → A) :
    ∑ k : Fin N, g k = ∑ t : Fin m, ∑ r : Fin n, g ⟨t.val * n + r.val, by
      have ht := t.isLt; have hr := r.isLt
      calc t.val * n + r.val < t.val * n + n := Nat.add_lt_add_left hr _
        _ = (t.val + 1) * n := (Nat.succ_mul _ _).symm
        _ ≤ m * n := Nat.mul_le_mul_right _ ht
        _ = N := h⟩ := by
  subst h
  rw [← Equiv.sum_comp (finProdFinEquiv (m := m) (n := n)) g, Fintype.sum_prod_type]
  refine Finset.sum_congr rfl fun t _ => Finset.sum_congr rfl fun r _ => congrArg g (Fin.ext ?_)
  show r.val + n * t.val = t.val * n + r.val
  rw [Nat.mul_comm, Nat.add_comm]

/-- Position k' of block u of the packed order is row 1024 u + 8 (k' mod 128) + k' / 128: within a block the rows
    come field by field, 128 words for each of the eight fields. -/
def packedRow (u : Fin 8) (k' : Fin 1024) : Fin 8192 :=
  ⟨u.val * 1024 + (k'.val % 128) * 8 + k'.val / 128, by have := u.isLt; have := k'.isLt; omega⟩

theorem packedRow_val (u : Fin 8) (k' : Fin 1024) :
    (packedRow u k').val = u.val * 1024 + (k'.val % 128) * 8 + k'.val / 128 := rfl

/-- The packed order visits every row once. -/
theorem packedRow_bijective : Function.Bijective fun p : Fin 8 × Fin 1024 => packedRow p.1 p.2 := by
  refine (Fintype.bijective_iff_injective_and_card _).2 ⟨?_, by simp⟩
  rintro ⟨u, k⟩ ⟨u', k'⟩ h
  have hv : u.val * 1024 + (k.val % 128) * 8 + k.val / 128 = u'.val * 1024 + (k'.val % 128) * 8 + k'.val / 128 :=
    congrArg Fin.val h
  have := u.isLt; have := u'.isLt; have := k.isLt; have := k'.isLt
  refine Prod.ext (Fin.ext ?_) (Fin.ext ?_)
  · show u.val = u'.val; omega
  · show k.val = k'.val; omega

/-- So a sum over the rows is the sum, over the eight blocks, of each block's sum in the packed order. This is
    commutativity and associativity of addition only: it holds for sums of extended reals. -/
theorem sum_packed {A : Type} [AddCommMonoid A] (f : Fin 8192 → A) :
    ∑ u : Fin 8, ∑ k' : Fin 1024, f (packedRow u k') = ∑ k : Fin 8192, f k := by
  rw [← Fintype.sum_prod_type (f := fun p : Fin 8 × Fin 1024 => f (packedRow p.1 p.2))]
  exact Fintype.sum_bijective _ packedRow_bijective _ _ fun _ => rfl

/-! ## The packed weights -/

/-- The four-bit field of a packed word that the shift word sh selects, as a real number: shift right
    arithmetically by sh, keep the low four bits, read the result as an integer. -/
def field (w sh : BitVec 32) : ℝ := ((IntOp.andi (IntOp.shrsi .vector w sh) 15#32).toInt : ℝ)

/-- Field i of a word starts at bit 4 i. -/
def shiftWord (i : ℕ) : BitVec 32 := BitVec.ofNat 32 (4 * i)

/-- The pattern 0x41000000 is the real number 8. -/
theorem eight_eq : Ideal.ofBits .f32 0x41000000#32 = ((8 : ℝ) : EReal) := by
  simp [Ideal.ofBits, Ideal.ieee, -EReal.coe_mul]; norm_num

abbrev SX : Shape := ⟨2, ![16, 8192]⟩
abbrev SQ : Shape := ⟨2, ![1024, 28672]⟩
abbrev SS : Shape := ⟨2, ![64, 28672]⟩
abbrev SO : Shape := ⟨2, ![16, 28672]⟩

variable (x : SX.Idx → EReal) (q : SQ.Idx → BitVec 32) (s : SS.Idx → EReal)

/-- The word that holds row k's weight in column n. -/
def wordOf (k : Fin 8192) (n : Fin 28672) : BitVec 32 :=
  q (ix2 (⟨k.val / 8, by have := k.isLt; omega⟩ : Fin 1024) n)

/-- Row k's scale in column n: the scale of its run of 128 rows. -/
def scaleOf (k : Fin 8192) (n : Fin 28672) : EReal :=
  s (ix2 (⟨k.val / 128, by have := k.isLt; omega⟩ : Fin 64) n)

/-- Row k's unsigned weight in column n, scaled: field (k mod 8) of its word times its scale. -/
def weight (k : Fin 8192) (n : Fin 28672) : EReal :=
  ((field (wordOf q k n) (shiftWord (k.val % 8)) : ℝ) : EReal) * scaleOf s k n

/-- Row k's contribution to the product with the unsigned weights at (p, n). -/
def term (p : Fin 16) (n : Fin 28672) (k : Fin 8192) : EReal := x (ix2 p k) * weight q s k n

/-- The product with the unsigned weights at (p, n). -/
def mainSum (p : Fin 16) (n : Fin 28672) : EReal := ∑ k : Fin 8192, term x q s p n k

/-- Block u's share of it, its 1024 rows taken in the packed order. -/
def blockSum (p : Fin 16) (n : Fin 28672) (u : Fin 8) : EReal := ∑ k' : Fin 1024, term x q s p n (packedRow u k')

/-- The same for any number u: nothing beyond the eighth block. -/
def blockSumN (p : Fin 16) (n : Fin 28672) (u : ℕ) : EReal := if h : u < 8 then blockSum x q s p n ⟨u, h⟩ else 0

/-- A running total started at zero and fed the block sums in order: after block 0 it is 0 + block 0, after block
    u + 1 what it was plus block u + 1. -/
def running (p : Fin 16) (n : Fin 28672) : ℕ → EReal
  | 0 => 0 + blockSumN x q s p n 0
  | u + 1 => running p n u + blockSumN x q s p n (u + 1)

theorem running_eq_sum (p : Fin 16) (n : Fin 28672) (u : ℕ) :
    running x q s p n u = ∑ v ∈ Finset.range (u + 1), blockSumN x q s p n v := by
  induction u with
  | zero => simp [running]
  | succ u ih => rw [running, ih, Finset.sum_range_succ _ (u + 1)]

/-- After the eighth block the running total is the whole product with the unsigned weights. -/
theorem running_last (p : Fin 16) (n : Fin 28672) : running x q s p n 7 = mainSum x q s p n := by
  rw [running_eq_sum, Finset.sum_range, mainSum, ← sum_packed]
  refine Finset.sum_congr rfl fun u _ => ?_
  unfold blockSumN
  rw [dif_pos u.isLt]
  rfl

/-- The sum of row p of x over run g of 128 rows. -/
def runSum (p : Fin 16) (g : Fin 64) : EReal :=
  ∑ j : Fin 128, x (ix2 p (⟨g.val * 128 + j.val, by have := g.isLt; have := j.isLt; omega⟩ : Fin 8192))

/-- The offset's share at (p, n), before the factor 8: the run sums of x against the scales. -/
def offsetSum (p : Fin 16) (n : Fin 28672) : EReal := ∑ g : Fin 64, runSum x p g * s (ix2 g n)

/-- THE VALUE both programs end with: the product with the unsigned weights, less eight times the run sums of x
    against the scales. -/
def G : SO.Idx → EReal := fun j =>
  mainSum x q s (j 0) (j 1) - Ideal.ofBits .f32 0x41000000#32 * offsetSum x s (j 0) (j 1)

/-! ## The law of the reals that joins the two arrangements -/

/-- On the reals: a sum of a k · ((b k − 8) · c (k / 128)) is the sum of a k · (b k · c (k / 128)) less
    8 · ∑ g, (∑ j, a (128 g + j)) · c g. -/
theorem offset_law (a b : Fin 8192 → ℝ) (c : Fin 64 → ℝ) :
    ∑ k : Fin 8192, a k * ((b k - 8) * c ⟨k.val / 128, by have := k.isLt; omega⟩)
      = (∑ k : Fin 8192, a k * (b k * c ⟨k.val / 128, by have := k.isLt; omega⟩))
        - 8 * ∑ g : Fin 64, (∑ j : Fin 128, a ⟨g.val * 128 + j.val, by have := g.isLt; have := j.isLt; omega⟩) * c g := by
  have hruns : ∑ g : Fin 64, (∑ j : Fin 128, a ⟨g.val * 128 + j.val, by have := g.isLt; have := j.isLt; omega⟩) * c g
      = ∑ k : Fin 8192, a k * c ⟨k.val / 128, by have := k.isLt; omega⟩ := by
    rw [sum_runs 64 128 8192 rfl fun k : Fin 8192 => a k * c ⟨k.val / 128, by have := k.isLt; omega⟩]
    refine Finset.sum_congr rfl fun g _ => ?_
    rw [Finset.sum_mul]
    refine Finset.sum_congr rfl fun j _ => ?_
    congr 2
    apply Fin.ext
    show g.val = (g.val * 128 + j.val) / 128
    have := j.isLt; omega
  rw [hruns, Finset.mul_sum, ← Finset.sum_sub_distrib]
  exact Finset.sum_congr rfl fun k _ => by ring

/-- The plain form of the layer at (p, n) — every row's weight with its offset 8 taken off before scaling — is G,
    when x and s are real-valued. -/
theorem plain_eq_G (hx : ∀ i, ∃ r : ℝ, x i = (r : EReal)) (hs : ∀ i, ∃ r : ℝ, s i = (r : EReal)) (j : SO.Idx) :
    ∑ k : Fin 8192, x (ix2 (j 0) k)
        * ((((field (wordOf q k (j 1)) (shiftWord (k.val % 8)) : ℝ) : EReal) - Ideal.ofBits .f32 0x41000000#32)
            * scaleOf s k (j 1))
      = G x q s j := by
  choose xr hxr using hx
  choose sr hsr using hs
  unfold G mainSum offsetSum runSum term weight scaleOf
  simp only [hxr, hsr, eight_eq, ← EReal.coe_sub, ← EReal.coe_mul, coe_sum]
  exact congrArg _ (offset_law (fun k => xr (ix2 (j 0) k)) (fun k => field (wordOf q k (j 1)) (shiftWord (k.val % 8)))
    (fun g => sr (ix2 g (j 1))))

end Cert.Quant

end
-- ==== Proof.RefIsG.lean ====
/-
  The reference program's result is the layer's value G, when x and the scales are real-valued.

  The reference unpacks every word into its eight fields along a new middle axis (word r, field i, column n), lays
  that out as rows 8 r + i, takes 8 off, multiplies by the scales repeated 128 rows each, and contracts with x.
  Read at (p, n) and row k this is

      x (p, k) · ((field (k mod 8) of word (k / 8, n) − 8) · s (k / 128, n)):

  a row-major reshape of (1024, 8, 28672) to (8192, 28672) sends row k to word k / 8 and field k mod 8, the shift
  the reference computes for field i is iota(i) · 4, the host's arithmetic shift is the vector unit's on 32-bit
  words, and a reshape of (64, 128, 28672) to (8192, 28672) sends row k to scale row k / 128. The plain form is G
  by the law of the reals in the specification.
-/
import proofs.«414245_j36223754174464_3_alg».proof.Proof.Gen.ReferenceIdeal.Read
import proofs.«414245_j36223754174464_3_alg».proof.Proof.Spec
import Idealize.ShloMosaic.Lib.KernelVsHost

noncomputable section

open scoped BigOperators

namespace Cert.Quant.Reference

open Idealize.ShloMosaic Idealize.ShloMosaic.ValueIdx Cert.ReferenceIdeal Cert.ReferenceIdeal.Read Cert.Quant

/-- The shift the reference computes for field i, iota(i) · 4 as 32-bit words, is the word 4 i. -/
theorem iota_times_four : ∀ i : Fin 8, IntOp.muli (BitVec.ofNat 32 i.val) 4#32 = shiftWord i.val := by decide

variable (x0 : SX.Idx → EReal) (x1 : SQ.Idx → BitVec 32) (x2 : SS.Idx → EReal)

/-- The weight the reference forms for row k and column n. -/
theorem weight_at (j : SO.Idx) (k : Fin 8192) :
    val_main_v16 (F := Ideal) x1 x2 (ridx_main_v17 j k)
      = (((field (wordOf x1 k (j 1)) (shiftWord (k.val % 8)) : ℝ) : EReal) - Ideal.ofBits .f32 0x41000000#32)
          * scaleOf x2 k (j 1) := by
  have hk := k.isLt
  have hn : (j 1).val < 28672 := (j 1).isLt
  -- the word: row k of the unpacked array is word k / 8, in the same column
  have eword : idx_main_v3 (idx_main_v5 (idx_main_v10 (ridx_main_v17 j k)))
      = ix2 (⟨k.val / 8, by omega⟩ : Fin 1024) (j 1) := funext fun a => Fin.ext (by
    match a with
    | ⟨0, _⟩ => show (k.val * 28672 + (j 1).val) / 229376 = k.val / 8; omega
    | ⟨1, _⟩ => show (k.val * 28672 + (j 1).val) % 28672 = (j 1).val; omega)
  -- the field: k mod 8
  have efield : ((idx_main_v4 (idx_main_v6 (idx_main_v10 (ridx_main_v17 j k)))) 0).val = k.val % 8 := by
    show (k.val * 28672 + (j 1).val) / 28672 % 8 = k.val % 8; omega
  -- the scale: row k of the repeated scales is scale row k / 128, in the same column
  have escale : idx_main_v14 (idx_main_v15 (ridx_main_v17 j k))
      = ix2 (⟨k.val / 128, by omega⟩ : Fin 64) (j 1) := funext fun a => Fin.ext (by
    match a with
    | ⟨0, _⟩ => show (k.val * 28672 + (j 1).val) / 3670016 = k.val / 128; omega
    | ⟨1, _⟩ => show (k.val * 28672 + (j 1).val) % 28672 = (j 1).val; omega)
  rw [val_main_v16_apply, val_main_v13_apply, val_main_v11_apply, val_main_v10_apply, val_main_v9_apply,
    val_main_v7_apply, val_main_v5_apply, val_main_v3_apply, val_main_v6_apply, val_main_v4_apply, val_main_v2_apply,
    val_main_v0_apply, val_main_v1_apply, val_main_c_apply, val_main_v8_apply, val_main_c_0_apply, val_main_v12_apply,
    val_main_cst_apply, val_main_v15_apply, val_main_v14_apply, eword, escale, efield,
    iota_times_four ⟨k.val % 8, Nat.mod_lt _ (by decide)⟩, shrsi_unit .host .vector]
  rfl

/-- The reference's result is G on real-valued x and scales. -/
theorem result_eq_G (hx : ∀ i, ∃ r : ℝ, x0 i = (r : EReal)) (hs : ∀ i, ∃ r : ℝ, x2 i = (r : EReal)) :
    val_main_v17 (F := Ideal) x0 x1 x2 = G x0 x1 x2 := by
  funext j
  rw [val_main_v17_apply, ← plain_eq_G x0 x1 x2 hx hs j]
  refine Finset.sum_congr rfl fun k _ => ?_
  have el : lidx_main_v17 j k = ix2 (j 0) k := funext fun a => by
    match a with
    | ⟨0, _⟩ => rfl
    | ⟨1, _⟩ => rfl
  rw [el, weight_at]
  rfl

end Cert.Quant.Reference

end
-- ==== Proof.Finite.lean ====
/-
  What the precondition gives: every entry of x and of the scales is a real number.

  The precondition is the conjunction of two tests, one per float input: |v| < +∞ at every entry, all entries
  and-ed together. On the extended reals |v| is max v (−v), which is +∞ exactly at the two infinities; so an entry
  that passes is the image of a real number.
-/
import proofs.«414245_j36223754174464_3_alg».proof.Pre_finite_inputs
import Idealize.ShloMosaic.Lib.ReduceAll
import Idealize.ShloMosaic.Lib.Affine
import Idealize.ShloMosaic.Lib.ValueIdx
import Idealize.ShloMosaic.PureOps.Ideal.Laws

noncomputable section

namespace Cert.Quant.Finite

open Idealize.ShloMosaic Idealize.ShloMosaic.ValueIdx Cert.Pre_finite_inputs

/-- The scalar shape has one index. -/
instance : Subsingleton S_.Idx := ⟨fun _ _ => funext fun d => d.elim0⟩

/-- An extended real whose absolute value is below +∞ is a real number. -/
theorem real_of_abs_lt_inf (v : EReal)
    (h : Ideal.cmp .olt (max v (-v)) (Ideal.ofBits .f32 0x7F800000#32) = 1#1) : ∃ r : ℝ, v = (r : EReal) := by
  have hinf : Ideal.ofBits .f32 0x7F800000#32 = ⊤ := by simp [Ideal.ofBits, Ideal.ieee]
  rw [hinf] at h
  induction v using EReal.rec with
  | bot => simp [Ideal.cmp] at h
  | coe r => exact ⟨r, rfl⟩
  | top => simp [Ideal.cmp] at h

/-- Under the precondition x and the scales are real-valued. -/
theorem real_of_pre [Cert.Pre_finite_inputs.Facts] (x0 : FVec Ideal S16x8192 .f32) (x1 : IVec S1024x28672 32)
    (x2 : FVec Ideal S64x28672 .f32) (h : Cert.Pre_finite_inputs.fn (F := Ideal) x0 x1 x2 = fun _ => 1#1) :
    (∀ i, ∃ r : ℝ, x0 i = (r : EReal)) ∧ (∀ i, ∃ r : ℝ, x2 i = (r : EReal)) := by
  have h0 := congrFun h ix0
  dsimp only [Cert.Pre_finite_inputs.fn] at h0
  obtain ⟨ha, hb⟩ := IntOp.andi_eq_one.mp h0
  exact ⟨fun i => real_of_abs_lt_inf (x0 i) (Host.reduce_andi_all _ _ _ _ _ ha i),
    fun i => real_of_abs_lt_inf (x2 i) (Host.reduce_andi_all _ _ _ _ _ hb i)⟩

end Cert.Quant.Finite

end
-- ==== Proof.LibDense.lean ====
/-
  The plain matrix product of two rank-2 arrays of extended reals, and the two places a program meets it: a
  contraction's sum over its one contracted axis, for dimension numbers that contract the left operand's columns
  with the right operand's rows and have no batch axis, re-indexed by that axis's coordinate; and, at the ideal
  values, a matmul into a zero accumulator whose operands pass through a narrower float format, and a host
  dot_general.
-/
import Idealize.ShloMosaic.PureOps.Ideal
import Idealize.ShloMosaic.PureOps.Ideal.Laws
import Idealize.ShloMosaic.Lib.ValueIdx

noncomputable section

open scoped BigOperators

namespace Cert.Lib

open Idealize.ShloMosaic Idealize.ShloMosaic.ValueIdx

/-- The matrix product x · w of an M × K by a K × N array: entry (p, q) is the sum over k of x (p, k) · w (k, q). -/
def dense {M K N : Nat} (x : (⟨2, ![M, K]⟩ : Shape).Idx → EReal) (w : (⟨2, ![K, N]⟩ : Shape).Idx → EReal) :
    (⟨2, ![M, N]⟩ : Shape).Idx → EReal :=
  fun j => ∑ k : Fin K, x (ValueIdx.ix2 (j 0) k) * w (ValueIdx.ix2 k (j 1))

/-- The product read at an entry. -/
theorem dense_apply {M K N : Nat} (x : (⟨2, ![M, K]⟩ : Shape).Idx → EReal) (w : (⟨2, ![K, N]⟩ : Shape).Idx → EReal)
    (j : (⟨2, ![M, N]⟩ : Shape).Idx) :
    dense x w j = ∑ k : Fin K, x (ValueIdx.ix2 (j 0) k) * w (ValueIdx.ix2 k (j 1)) := rfl

/-- A row of the product depends on that row of the left factor alone: if row p' of x' is row p of x, and w' is w,
    then entry (p', q) of x' · w' is entry (p, q) of x · w. -/
theorem dense_row {M M' K N : Nat} (x : (⟨2, ![M, K]⟩ : Shape).Idx → EReal) (x' : (⟨2, ![M', K]⟩ : Shape).Idx → EReal)
    (w w' : (⟨2, ![K, N]⟩ : Shape).Idx → EReal) (p : Fin M) (p' : Fin M')
    (hx : ∀ k : Fin K, x' (ValueIdx.ix2 p' k) = x (ValueIdx.ix2 p k)) (hw : ∀ i, w' i = w i) (q : Fin N) :
    dense x' w' (ValueIdx.ix2 p' q) = dense x w (ValueIdx.ix2 p q) := by
  show ∑ k : Fin K, x' (ValueIdx.ix2 p' k) * w' (ValueIdx.ix2 k q) = ∑ k : Fin K, x (ValueIdx.ix2 p k) * w (ValueIdx.ix2 k q)
  exact Finset.sum_congr rfl fun k _ => by rw [hx k, hw]

section Plain

variable {M K N : Nat} (d : DotDims ⟨2, ![M, K]⟩ ⟨2, ![K, N]⟩ ⟨2, ![M, N]⟩)

/-- Dimension numbers that contract one axis have a contraction shape of rank one. -/
theorem contr_rank (hlc : d.lhsContracting = [1]) : d.contr.rank = 1 := by
  rw [d.rank_contr, hlc]; rfl

/-- When the contracted axis is the left operand's second, the contraction shape's one extent is K. -/
theorem contr_size (hlc : d.lhsContracting = [1]) :
    d.contr.size ⟨0, by rw [contr_rank d hlc]; exact Nat.one_pos⟩ = K := by
  have hp : 0 < d.lhsContracting.length := by rw [hlc]; exact Nat.one_pos
  have h1 : d.lhsContracting[0]'hp = 1 := by simp [hlc]
  rw [d.size_contr 0 hp, h1]
  rfl

/-- Reading two coordinates of a rank-2 index at equal axis numbers gives equal values. -/
theorem coord_congr {n : Fin 2 → Nat} (j : (⟨2, n⟩ : Shape).Idx) (p q : Nat) (hp : p < 2) (hq : q < 2) (h : p = q) :
    (j ⟨p, hp⟩).val = (j ⟨q, hq⟩).val := by subst h; rfl

/-- The left operand's row is the result's row: axis 0 of the left operand is its one free axis, the first of the
    result's axes. -/
theorem lhsIdx_0 (hln : d.lhsNonContracting = [0]) (hlb : d.lhsBatch = [])
    (j : (⟨2, ![M, N]⟩ : Shape).Idx) (q : d.contr.Idx) : (d.lhsIdx j q 0).val = (j 0).val := by
  unfold DotDims.lhsIdx
  rw [dif_neg (show ¬(0 : Fin (⟨2, ![M, K]⟩ : Shape).rank) ∈ d.lhsBatch by rw [hlb]; exact List.not_mem_nil),
    dif_pos (show (0 : Fin (⟨2, ![M, K]⟩ : Shape).rank) ∈ d.lhsNonContracting by rw [hln]; exact List.mem_singleton.mpr rfl)]
  simp only [Fin.val_cast]
  exact coord_congr j _ _ _ _ (by simp [hlb, hln])

/-- The left operand's column is the contracted coordinate: axis 1 of the left operand is the contracted one. -/
theorem lhsIdx_1 (hlc : d.lhsContracting = [1]) (j : (⟨2, ![M, N]⟩ : Shape).Idx) (q : d.contr.Idx) :
    (d.lhsIdx j q 1).val = (q ⟨0, by rw [contr_rank d hlc]; exact Nat.one_pos⟩).val :=
  d.lhsIdx_val_of_single hlc j q

/-- The right operand's row is the contracted coordinate: axis 0 of the right operand is the contracted one. -/
theorem rhsIdx_0 (hlc : d.lhsContracting = [1]) (hrc : d.rhsContracting = [0]) (j : (⟨2, ![M, N]⟩ : Shape).Idx)
    (q : d.contr.Idx) : (d.rhsIdx j q 0).val = (q ⟨0, by rw [contr_rank d hlc]; exact Nat.one_pos⟩).val :=
  d.rhsIdx_val_of_single hrc j q

/-- The right operand's column is the result's column: axis 1 of the right operand is its one free axis, which
    comes after the left operand's one free axis among the result's axes. -/
theorem rhsIdx_1 (hln : d.lhsNonContracting = [0]) (hrn : d.rhsNonContracting = [1]) (hlb : d.lhsBatch = [])
    (hrb : d.rhsBatch = []) (j : (⟨2, ![M, N]⟩ : Shape).Idx) (q : d.contr.Idx) : (d.rhsIdx j q 1).val = (j 1).val := by
  unfold DotDims.rhsIdx
  rw [dif_neg (show ¬(1 : Fin (⟨2, ![K, N]⟩ : Shape).rank) ∈ d.rhsBatch by rw [hrb]; exact List.not_mem_nil),
    dif_pos (show (1 : Fin (⟨2, ![K, N]⟩ : Shape).rank) ∈ d.rhsNonContracting by rw [hrn]; exact List.mem_singleton.mpr rfl)]
  simp only [Fin.val_cast]
  exact coord_congr j _ _ _ _ (by simp [hlb, hln, hrn])

/-- THE CONTRACTION IS THE MATRIX PRODUCT. For dimension numbers contracting the left operand's columns with the
    right operand's rows, one free axis each and no batch axis, the sum over the contraction index of the operands'
    products at the dot's operand indices is the matrix product's entry: re-index the sum by the contracted axis's
    coordinate; the operand indices at result entry (p, q) and coordinate k are then (p, k) and (k, q). -/
theorem sum_contr_eq_dense (hlc : d.lhsContracting = [1]) (hrc : d.rhsContracting = [0])
    (hln : d.lhsNonContracting = [0]) (hrn : d.rhsNonContracting = [1]) (hlb : d.lhsBatch = []) (hrb : d.rhsBatch = [])
    (l : (⟨2, ![M, K]⟩ : Shape).Idx → EReal) (r : (⟨2, ![K, N]⟩ : Shape).Idx → EReal) (j : (⟨2, ![M, N]⟩ : Shape).Idx) :
    ∑ k : d.contr.Idx, l (d.lhsIdx j k) * r (d.rhsIdx j k) = dense l r j := by
  rw [dense_apply, ← Equiv.sum_comp (ValueIdx.contrEquiv1 d K (contr_rank d hlc) (contr_size d hlc)).symm]
  refine Finset.sum_congr rfl fun k _ => ?_
  have hk := ValueIdx.contrEquiv1_symm_val d K (contr_rank d hlc) (contr_size d hlc) k
  have el : d.lhsIdx j ((ValueIdx.contrEquiv1 d K (contr_rank d hlc) (contr_size d hlc)).symm k)
      = (ValueIdx.ix2 (j 0) k : (⟨2, ![M, K]⟩ : Shape).Idx) := funext fun a => Fin.ext (by
    match a with
    | ⟨0, _⟩ => exact lhsIdx_0 d hln hlb _ _
    | ⟨1, _⟩ => exact (lhsIdx_1 d hlc _ _).trans hk)
  have er : d.rhsIdx j ((ValueIdx.contrEquiv1 d K (contr_rank d hlc) (contr_size d hlc)).symm k)
      = (ValueIdx.ix2 k (j 1) : (⟨2, ![K, N]⟩ : Shape).Idx) := funext fun a => Fin.ext (by
    match a with
    | ⟨0, _⟩ => exact (rhsIdx_0 d hlc hrc _ _).trans hk
    | ⟨1, _⟩ => exact rhsIdx_1 d hln hrn hlb hrb _ _)
  rw [el, er]

/-- At the ideal values a matmul into the zero accumulator, its two f32 operands first passed through bf16 (the
    identity on extended reals), is the matrix product of the operands. -/
theorem matmul_truncf_eq_dense (hlc : d.lhsContracting = [1]) (hrc : d.rhsContracting = [0])
    (hln : d.lhsNonContracting = [0]) (hrn : d.rhsNonContracting = [1]) (hlb : d.lhsBatch = []) (hrb : d.rhsBatch = [])
    (prec : Option ContractPrecision) (l : FVec Ideal ⟨2, ![M, K]⟩ .f32) (r : FVec Ideal ⟨2, ![K, N]⟩ .f32)
    (h₁ : FTy.bf16.bits < FTy.f32.bits) (h₂ : FTy.bf16.bits < FTy.f32.bits) :
    FloatOps.matmul d prec (truncf .bf16 l h₁ : FVec Ideal ⟨2, ![M, K]⟩ .bf16)
        (truncf .bf16 r h₂ : FVec Ideal ⟨2, ![K, N]⟩ .bf16) (constant (F := Ideal) ⟨2, ![M, N]⟩ .f32 0x00000000#32)
      = dense l r := by
  funext j
  rw [Ideal.matmul_constant_zero_apply]
  exact sum_contr_eq_dense d hlc hrc hln hrn hlb hrb l r j

/-- At the ideal values the host's dot_general is the matrix product of its operands, whatever the precision. -/
theorem dotGeneral_eq_dense (hlc : d.lhsContracting = [1]) (hrc : d.rhsContracting = [0])
    (hln : d.lhsNonContracting = [0]) (hrn : d.rhsNonContracting = [1]) (hlb : d.lhsBatch = []) (hrb : d.rhsBatch = [])
    (prec : Option ContractPrecision) (l : FVec Ideal ⟨2, ![M, K]⟩ .f32) (r : FVec Ideal ⟨2, ![K, N]⟩ .f32) :
    Host.dotGeneral d prec l r = dense l r := by
  funext j
  simp only [Host.dotGeneral]
  rw [Ideal.dotGeneral_apply]
  exact sum_contr_eq_dense d hlc hrc hln hrn hlb hrb l r j

end Plain

end Cert.Lib

end
-- ==== Proof.HostPre.lean ====
/-
  What the region finds in its operand arrays, and the offset term, as functions of the program's arguments.

  Before the region the host lays x out in the packed order: it splits each row's 8192 entries as (block u, word r,
  field i) — entry 1024 u + 8 r + i —, swaps the last two axes and flattens again, so that position 1024 u + 128 i + r
  of the new row holds entry 1024 u + 8 r + i of the old; with k' = 128 i + r this is the packed row of (u, k'). It
  also passes x and the scales through a narrower float format, which changes nothing on the extended reals, and
  it computes the offset term: 8 times the product of the run sums of x with the scales.
-/
import proofs.«414245_j36223754174464_3_alg».proof.Proof.Gen.KernelIdeal.Frame
import proofs.«414245_j36223754174464_3_alg».proof.Proof.Spec
import proofs.«414245_j36223754174464_3_alg».proof.Proof.LibDense
import Idealize.ShloMosaic.Lib.Pipeline.Value
import Idealize.ShloMosaic.Lib.StableHlo.Run
import Idealize.ShloMosaic.PureOps.Ideal.Laws

set_option maxRecDepth 16384

noncomputable section

open scoped BigOperators

namespace Cert.Quant.Host

open Idealize.ShloMosaic Idealize.ShloMosaic.TcCoe Idealize.ShloMosaic.ValueIdx Cert.KernelIdeal Cert.KernelIdeal.Gen Cert.Quant
open Idealize.SL Idealize.SL.Sem

variable (m : (ℓ : Loc nD τ sig) → Buf (Elt Ideal) ℓ)

/-- The program's three arguments on core c. -/
abbrev argX (c : Dev nD) : FVec Ideal S16x8192 .f32 := m ((c : Thread nD τ).loc main_arg0)
abbrev argQ (c : Dev nD) : IVec S1024x28672 32 := m ((c : Thread nD τ).loc main_arg1)
abbrev argS (c : Dev nD) : FVec Ideal S64x28672 .f32 := m ((c : Thread nD τ).loc main_arg2)

/-- The region's first operand is x re-laid by the host's reshape, transpose, reshape and format change. -/
theorem packed_eq (c : Dev nD) : (V m c main_v8 : S16x8192.Idx → EReal)
    = truncf (F := Ideal) .bf16 (shapeCast S16x8192 (transpose S16x8x8x128 [0, 1, 3, 2]
        (shapeCast S16x8x128x8 (argX m c) Gen.shapeCasts_S16x8192_S16x8x128x8)
        Gen.transposes_S16x8x128x8_S16x8x8x128_0_1_3_2) Gen.shapeCasts_S16x8x8x128_S16x8192) Gen.bitsLt_bf16_f32 := by
  show StableHlo.after hostOps0 (fun b => m (c, b)) (Proc.devRef .tc main_v8) = _
  after_results
  rfl

/-- Position 1024 u + k' of a row of the first operand is the packed row of (u, k') of x. -/
theorem packed_apply (c : Dev nD) (a : Fin 16) (u : Fin 8) (k' : Fin 1024) :
    (V m c main_v8 : S16x8192.Idx → EReal) (ix2 a (⟨u.val * 1024 + k'.val, by have := u.isLt; have := k'.isLt; omega⟩ : Fin 8192))
      = argX m c (ix2 a (packedRow u k')) := by
  have ha := a.isLt; have hu := u.isLt; have hk := k'.isLt
  rw [packed_eq, truncf_apply]
  rw [shapeCast_apply _ Gen.shapeCasts_S16x8x8x128_S16x8192 _
    (ix4 a u (⟨k'.val / 128, by omega⟩ : Fin 8) (⟨k'.val % 128, Nat.mod_lt _ (by decide)⟩ : Fin 128))
    (by rewrite [Shape.rowMajor_val_four, Shape.rowMajor_val_two]
        show ((a.val * 8 + u.val) * 8 + k'.val / 128) * 128 + k'.val % 128 = a.val * 8192 + (u.val * 1024 + k'.val); omega)]
  rw [transpose_apply _ _ Gen.transposes_S16x8x128x8_S16x8x8x128_0_1_3_2 _
    (ix4 a u (⟨k'.val % 128, Nat.mod_lt _ (by decide)⟩ : Fin 128) (⟨k'.val / 128, by omega⟩ : Fin 8))
    (fun b => by
      match b with
      | ⟨0, _⟩ => rfl
      | ⟨1, _⟩ => rfl
      | ⟨2, _⟩ => rfl
      | ⟨3, _⟩ => rfl)]
  exact shapeCast_apply _ Gen.shapeCasts_S16x8192_S16x8x128x8 _ (ix2 a (packedRow u k'))
    (by rewrite [Shape.rowMajor_val_four, Shape.rowMajor_val_two]
        show a.val * 8192 + (u.val * 1024 + (k'.val % 128) * 8 + k'.val / 128)
          = ((a.val * 8 + u.val) * 128 + k'.val % 128) * 8 + k'.val / 128; omega)

/-- The region's second operand is the packed weights as launched. -/
theorem words_eq (c : Dev nD) : (V m c main_arg1 : S1024x28672.Idx → BitVec 32) = argQ m c := V_main_arg1 m c

/-- The region's third operand is the scales: the format change is the identity on extended reals. -/
theorem scales_eq (c : Dev nD) : (V m c main_v9 : S64x28672.Idx → EReal) = argS m c := by
  show StableHlo.after hostOps0 (fun b => m (c, b)) (Proc.devRef .tc main_v9) = _
  after_results
  rfl

/-- The offset term the host computes before the region. -/
theorem offset_eq (c : Dev nD) : (V m c main_v4 : S16x28672.Idx → EReal)
    = mulf (F := Ideal) (φ := .f32) (broadcastInDim S16x28672 ![] Gen.bcast_S_S16x28672 (constant (F := Ideal) S_ .f32 0x41000000#32))
        (Host.dotGeneral (F := Ideal) dot_S16x64_S64x28672_S16x28672_1_0_0_1_n_n none
          (Host.reduceAdd (F := Ideal) (shapeCast S16x64x128 (argX m c) Gen.shapeCasts_S16x8192_S16x64x128)
            (constant (F := Ideal) S_ .f32 0x00000000#32) Gen.reducesTo_S16x64x128_S16x64_d2 Gen.h_S_)
          (argS m c)) := by
  show StableHlo.after hostOps0 (fun b => m (c, b)) (Proc.devRef .tc main_v4) = _
  after_results
  rfl

end Cert.Quant.Host

end
-- ==== Proof.Body.lean ====
/-
  What one grid point adds to the running total.

  A point loads a block of 128 × 1792 packed words, the 8 × 1792 scales of its eight runs, and 16 × 1024 entries of
  x already in the packed order. It repeats every scale row 16 times (16 words hold the 128 rows of a run), takes
  field i of every word for i = 0 … 7, scales it, and stacks the eight 128-row results into a 1024 × 1792 weight
  tile: row k' of the tile is field k' / 128 of word k' mod 128, times the scale of run (k' mod 128) / 16. The value
  stored is the old total plus the product of the x block with that tile; the product is a plain sum over k',
  since the accumulator it starts from is zero.
-/
import proofs.«414245_j36223754174464_3_alg».proof.Proof.Gen.KernelIdeal.Skeleton
import proofs.«414245_j36223754174464_3_alg».proof.Proof.Spec
import proofs.«414245_j36223754174464_3_alg».proof.Proof.LibDense
import Idealize.ShloMosaic.Lib.Pipeline.Value
import Idealize.ShloMosaic.Lib.ValueLayout

set_option maxRecDepth 16384

noncomputable section

open scoped BigOperators

namespace Cert.Quant.Body

open Idealize.ShloMosaic Idealize.ShloMosaic.ValueIdx Cert.KernelIdeal Cert.KernelIdeal.Gen Cert.Quant

/-- One field of every word of a block, scaled: shift by sh, keep four bits, read as a number, times the scale. -/
def piece (v3 : Vec Ideal S128x1792 .i32) (v9 : FVec Ideal S128x1792 .bf16) (sh : BitVec 32) : FVec Ideal S128x1792 .bf16 :=
  mulf (sitofp .bf16 (andi (shrsi v3 (broadcast S128x1792 sh)) (broadcast S128x1792 15#32))) v9

theorem piece_apply (v3 : Vec Ideal S128x1792 .i32) (v9 : FVec Ideal S128x1792 .bf16) (sh : BitVec 32) (i : S128x1792.Idx) :
    piece v3 v9 sh i = ((field (v3 i) sh : ℝ) : EReal) * v9 i := rfl

/-- The weight tile: the eight scaled fields of the word block stacked, field 0's 128 rows first. -/
def wtile (v3 : Vec Ideal S128x1792 .i32) (v9 : FVec Ideal S128x1792 .bf16) : FVec Ideal S1024x1792 .bf16 :=
  concatenate S1024x1792 0 [⟨S128x1792, piece v3 v9 (shiftWord 0)⟩, ⟨S128x1792, piece v3 v9 (shiftWord 1)⟩,
    ⟨S128x1792, piece v3 v9 (shiftWord 2)⟩, ⟨S128x1792, piece v3 v9 (shiftWord 3)⟩, ⟨S128x1792, piece v3 v9 (shiftWord 4)⟩,
    ⟨S128x1792, piece v3 v9 (shiftWord 5)⟩, ⟨S128x1792, piece v3 v9 (shiftWord 6)⟩, ⟨S128x1792, piece v3 v9 (shiftWord 7)⟩]
    Gen.concatenates_S128x1792_S128x1792_S128x1792_S128x1792_S128x1792_S128x1792_S128x1792_S128x1792_S1024x1792_d0

/-- Row k' of the weight tile is row k' mod 128 of field k' / 128. -/
theorem wtile_apply (v3 : Vec Ideal S128x1792 .i32) (v9 : FVec Ideal S128x1792 .bf16) (k' : Fin 1024) (b : Fin 1792) :
    wtile v3 v9 (ix2 k' b)
      = ((field (v3 (ix2 (⟨k'.val % 128, Nat.mod_lt _ (by decide)⟩ : Fin 128) b)) (shiftWord (k'.val / 128)) : ℝ) : EReal)
          * v9 (ix2 (⟨k'.val % 128, Nat.mod_lt _ (by decide)⟩ : Fin 128) b) := by
  have hk := k'.isLt
  unfold wtile
  refine (concatenate_ofFn_apply (t := S1024x1792) (s₁ := S128x1792) 0 (fun i : Fin 8 => piece v3 v9 (shiftWord i.val)) _ rfl 128 rfl
    (ix2 k' b) (⟨k'.val / 128, by omega⟩ : Fin 8) rfl (ix2 (⟨k'.val % 128, Nat.mod_lt _ (by decide)⟩ : Fin 128) b) rfl ?_).trans ?_
  · intro d hd
    match d with
    | ⟨0, _⟩ => exact absurd rfl hd
    | ⟨1, _⟩ => rfl
  · exact piece_apply _ _ _ _

/-- The stored value over a weight tile given by its scaled fields: the old total plus the x block times the tile. -/
theorem pay1_apply (v3 : Vec Ideal S128x1792 .i32) (v9 : FVec Ideal S128x1792 .bf16) (v59 : Vec Ideal S16x1024 .bf16)
    (v62 : Vec Ideal S16x1792 .f32) (a : Fin 16) (b : Fin 1792) :
    k0_pay1 (F := Ideal) v3 v9 (piece v3 v9 (shiftWord 0)) (piece v3 v9 (shiftWord 1)) (piece v3 v9 (shiftWord 2))
        (piece v3 v9 (shiftWord 3)) (piece v3 v9 (shiftWord 4)) 20#32 v59 v62 (ix2 a b)
      = v62 (ix2 a b) + ∑ k' : Fin 1024, v59 (ix2 a k') * wtile v3 v9 (ix2 k' b) := by
  unfold k0_pay1
  show (shapeCast S16x1792 (addf v62 (FloatOps.matmul dot_S16x1024_S1024x1792_S16x1792_1_0_0_1_n_n none
      (shapeCast S16x1024 v59 Gen.shapeCasts_S16x1024_S16x1024) (wtile v3 v9)
      (constant S16x1792 .f32 0x00000000#32))) Gen.shapeCasts_S16x1792_S16x1792) (ix2 a b) = _
  rw [shapeCast_self, shapeCast_self, addf_apply, Ideal.matmul_constant_zero_apply,
    Cert.Lib.sum_contr_eq_dense _ rfl rfl rfl rfl rfl rfl, Cert.Lib.dense_apply]

/-- The scales repeated: row r of the expanded block is scale row r / 16. -/
theorem expand_apply (v4 : Vec Ideal S8x1792 .bf16) (r : Fin 128) (b : Fin 1792) :
    k0_pay3 (F := Ideal) v4 (ix2 r b) = v4 (ix2 (⟨r.val / 16, by have := r.isLt; omega⟩ : Fin 8) b) := by
  have hr := r.isLt
  have hb := b.isLt
  unfold k0_pay3
  show (shapeCast S128x1792 (broadcastTo S8x16x1792 (shapeCast S8x1x1792 (shapeCast S8x1x1792
      (shapeCast S8x1792 v4 Gen.shapeCasts_S8x1792_S8x1792) Gen.shapeCasts_S8x1792_S8x1x1792) Gen.shapeCasts_S8x1x1792_S8x1x1792)
      Gen.broadcasts_S8x1x1792_S8x16x1792) Gen.shapeCasts_S8x16x1792_S128x1792) (ix2 r b) = _
  rw [shapeCast_self (s := S8x1792), shapeCast_self (s := S8x1x1792)]
  rw [shapeCast_apply _ Gen.shapeCasts_S8x16x1792_S128x1792 (ix2 r b)
    (ix3 (⟨r.val / 16, by omega⟩ : Fin 8) (⟨r.val % 16, Nat.mod_lt _ (by decide)⟩ : Fin 16) b)
    (by rewrite [Shape.rowMajor_val_three, Shape.rowMajor_val_two]
        show (r.val / 16 * 16 + r.val % 16) * 1792 + b.val = r.val * 1792 + b.val; omega)]
  rw [broadcastTo_apply _ Gen.broadcasts_S8x1x1792_S8x16x1792 _
    (ix3 (⟨r.val / 16, by omega⟩ : Fin 8) (⟨0, Nat.one_pos⟩ : Fin 1) b)
    (fun a => by
      match a with
      | ⟨0, _⟩ => show r.val / 16 = if (8 : Nat) = 1 then 0 else r.val / 16; rw [if_neg (by decide)]
      | ⟨1, _⟩ => show 0 = if (1 : Nat) = 1 then 0 else r.val % 16; rw [if_pos rfl]
      | ⟨2, _⟩ => show b.val = if (1792 : Nat) = 1 then 0 else b.val; rw [if_neg (by decide)])]
  exact shapeCast_apply _ Gen.shapeCasts_S8x1792_S8x1x1792 _ (ix2 (⟨r.val / 16, by omega⟩ : Fin 8) b)
    (by rewrite [Shape.rowMajor_val_three, Shape.rowMajor_val_two]
        show r.val / 16 * 1792 + b.val = (r.val / 16 * 1 + 0) * 1792 + b.val; omega)

/-- THE STORED VALUE, from the point's three blocks and the old total: at (a, b) the old total plus the sum over the
    1024 positions k' of the x block at (a, k') times field k' / 128 of word (k' mod 128, b) times the scale of run
    (k' mod 128) / 16 in column b. -/
theorem stored_apply (v3 : Vec Ideal S128x1792 .i32) (v4 : Vec Ideal S8x1792 .bf16) (v59 : Vec Ideal S16x1024 .bf16)
    (v62 : Vec Ideal S16x1792 .f32) (a : Fin 16) (b : Fin 1792) :
    k0_pay1 (F := Ideal) v3 (k0_pay3 v4) (k0_pay4 v3 v4) (k0_pay5 v3 v4) (k0_pay6 v3 v4) (k0_pay7 v3 v4) (k0_pay8 v3 v4)
        20#32 v59 v62 (ix2 a b)
      = v62 (ix2 a b) + ∑ k' : Fin 1024, v59 (ix2 a k')
          * (((field (v3 (ix2 (⟨k'.val % 128, Nat.mod_lt _ (by decide)⟩ : Fin 128) b)) (shiftWord (k'.val / 128)) : ℝ) : EReal)
              * v4 (ix2 (⟨k'.val % 128 / 16, by have := k'.isLt; omega⟩ : Fin 8) b)) := by
  refine (pay1_apply v3 (k0_pay3 v4) v59 v62 a b).trans ?_
  refine congrArg (v62 (ix2 a b) + ·) (Finset.sum_congr rfl fun k' _ => ?_)
  rw [wtile_apply, expand_apply]

end Cert.Quant.Body

end
-- ==== Proof.Cases.lean ====
/-
  What each kind of grid point leaves behind, as values.

  The points of one column block come in runs of eight along the contraction. The first point of a run clears the
  running total and then adds its product to it, so it leaves (zero block's update); every later point adds its
  product to what the point before left; the last point of a run also copies the total into the output block. In
  each case the buffer's final contents is the one stored value that covers it, with every load read back to the
  contents the buffer had, or to the value stored just before.
-/
import proofs.«414245_j36223754174464_3_alg».proof.Proof.Gen.KernelIdeal.Frame
import Idealize.ShloMosaic.Lib.Pipeline.Value

set_option maxRecDepth 16384

noncomputable section

namespace Cert.Quant.Cases

open Idealize.ShloMosaic Idealize.ShloMosaic.TcCoe Idealize.ShloMosaic.Tactic Cert.KernelIdeal Cert.KernelIdeal.Gen
open Idealize.SL Idealize.SL.Sem

variable {F : FTy → Type} [FloatOps F]

/-- Every store and load of the body starts at the origin of its buffer. -/
theorem hz : (![0, 0] : Fin 2 → Nat) = fun _ => 0 := funext fun a => by
  match a with
  | ⟨0, _⟩ => rfl
  | ⟨1, _⟩ => rfl

/-- The value a point stores into the running total: the update of the old total xs by the point's three blocks. -/
abbrev update (x0 : Vec F S16x1024 .bf16) (x1 : Vec F S128x1792 .i32) (x2 : Vec F S8x1792 .bf16) (xs : Vec F S16x1792 .f32) :
    Vec F S16x1792 .f32 :=
  k0_pay1 x1 (k0_pay3 x2) (k0_pay4 x1 x2) (k0_pay5 x1 x2) (k0_pay6 x1 x2) (k0_pay7 x1 x2) (k0_pay8 x1 x2) 20#32 x0 xs

/-- A middle point leaves the old total updated. -/
theorem sout_B (c : Dev nD) (i : grid0.Coords) (arg2 : Memref sig .tc .vmem S16x1024 .bf16) (harg2 : arg2.IsWhole) (arg3 : Memref sig .tc .vmem S128x1792 .i32) (harg3 : arg3.IsWhole) (arg4 : Memref sig .tc .vmem S8x1792 .bf16) (harg4 : arg4.IsWhole) (arg5 : Memref sig .tc .vmem S16x1792 .f32) (harg5 : arg5.IsWhole) (arg6 : Memref sig .tc .vmem S16x1792 .f32) (harg6 : arg6.IsWhole) (hc0 : ¬cond0_0 i) (hc1 : ¬cond0_1 i)
    (x0 : Vec F S16x1024 .bf16) (x1 : Vec F S128x1792 .i32) (x2 : Vec F S8x1792 .bf16) (xs0 : Vec F S16x1792 .f32) :
    sout0_B_0 c i arg2 harg2 arg3 harg3 arg4 harg4 arg5 harg5 arg6 harg6 hc0 hc1 x0 x1 x2 xs0 = update x0 x1 x2 xs0 := by
  unfold sout0_B_0
  rw [View.read_writes_eq_canon _ _ _ (scover0_B_0 c i arg2 harg2 arg3 harg3 arg4 harg4 arg5 harg5 arg6 harg6 hc0 hc1 x0 x1 x2 xs0)]
  unfold kernelRun0_B
  dsimp only
  sl_unfold_words
  rw [View.canon_unit_zero hz]
  simp only [View.readAt_eq_ld, harg2.read_unread, harg3.read_unread, harg4.read_unread, harg6.read_unread,
    View.ld_unit_zero (S := S16x1024) hz, View.ld_unit_zero (S := S128x1792) hz, View.ld_unit_zero (S := S8x1792) hz,
    View.ld_unit_zero (S := S16x1792) hz]

/-- The first point of a run leaves the zero block updated: the clearing store is read back by the update's load. -/
theorem sout_A (c : Dev nD) (i : grid0.Coords) (arg2 : Memref sig .tc .vmem S16x1024 .bf16) (harg2 : arg2.IsWhole) (arg3 : Memref sig .tc .vmem S128x1792 .i32) (harg3 : arg3.IsWhole) (arg4 : Memref sig .tc .vmem S8x1792 .bf16) (harg4 : arg4.IsWhole) (arg5 : Memref sig .tc .vmem S16x1792 .f32) (harg5 : arg5.IsWhole) (arg6 : Memref sig .tc .vmem S16x1792 .f32) (harg6 : arg6.IsWhole) (hc0 : cond0_0 i) (hc1 : ¬cond0_1 i)
    (x0 : Vec F S16x1024 .bf16) (x1 : Vec F S128x1792 .i32) (x2 : Vec F S8x1792 .bf16) :
    sout0_A_0 c i arg2 harg2 arg3 harg3 arg4 harg4 arg5 harg5 arg6 harg6 hc0 hc1 x0 x1 x2 = update x0 x1 x2 (k0_pay2 (F := F)) := by
  unfold sout0_A_0
  rw [View.read_writes_eq_canon _ _ _ (scover0_A_0 c i arg2 harg2 arg3 harg3 arg4 harg4 arg5 harg5 arg6 harg6 hc0 hc1 x0 x1 x2)]
  unfold kernelRun0_A
  dsimp only
  sl_unfold_words
  rw [View.canon_cons_unit_zero (S := S16x1792) hz, View.readCov_unit_zero (S := S16x1792) _ hz]
  simp only [View.readAt_eq_ld, harg2.read_unread, harg3.read_unread, harg4.read_unread, harg6.read_unread,
    View.ld_unit_zero (S := S16x1024) hz, View.ld_unit_zero (S := S128x1792) hz, View.ld_unit_zero (S := S8x1792) hz,
    View.ld_unit_zero (S := S16x1792) hz]

/-- The last point of a run leaves the old total updated in the running total, -/
theorem sout_C (c : Dev nD) (i : grid0.Coords) (arg2 : Memref sig .tc .vmem S16x1024 .bf16) (harg2 : arg2.IsWhole) (arg3 : Memref sig .tc .vmem S128x1792 .i32) (harg3 : arg3.IsWhole) (arg4 : Memref sig .tc .vmem S8x1792 .bf16) (harg4 : arg4.IsWhole) (arg5 : Memref sig .tc .vmem S16x1792 .f32) (harg5 : arg5.IsWhole) (arg6 : Memref sig .tc .vmem S16x1792 .f32) (harg6 : arg6.IsWhole) (hc0 : ¬cond0_0 i) (hc1 : cond0_1 i)
    (x0 : Vec F S16x1024 .bf16) (x1 : Vec F S128x1792 .i32) (x2 : Vec F S8x1792 .bf16) (xs0 : Vec F S16x1792 .f32) :
    sout0_C_0 c i arg2 harg2 arg3 harg3 arg4 harg4 arg5 harg5 arg6 harg6 hc0 hc1 x0 x1 x2 xs0 = update x0 x1 x2 xs0 := by
  unfold sout0_C_0
  rw [View.read_writes_eq_canon _ _ _ (scover0_C_0 c i arg2 harg2 arg3 harg3 arg4 harg4 arg5 harg5 arg6 harg6 hc0 hc1 x0 x1 x2 xs0)]
  unfold kernelRun0_C
  dsimp only
  sl_unfold_words
  rw [View.canon_unit_zero hz]
  simp only [View.readAt_eq_ld, harg2.read_unread, harg3.read_unread, harg4.read_unread, harg6.read_unread,
    View.ld_unit_zero (S := S16x1024) hz, View.ld_unit_zero (S := S128x1792) hz, View.ld_unit_zero (S := S8x1792) hz,
    View.ld_unit_zero (S := S16x1792) hz]

/-- and the same value in the output block: what it stores there is the total it has just stored, read back. -/
theorem out_C (c : Dev nD) (i : grid0.Coords) (arg2 : Memref sig .tc .vmem S16x1024 .bf16) (harg2 : arg2.IsWhole) (arg3 : Memref sig .tc .vmem S128x1792 .i32) (harg3 : arg3.IsWhole) (arg4 : Memref sig .tc .vmem S8x1792 .bf16) (harg4 : arg4.IsWhole) (arg5 : Memref sig .tc .vmem S16x1792 .f32) (harg5 : arg5.IsWhole) (arg6 : Memref sig .tc .vmem S16x1792 .f32) (harg6 : arg6.IsWhole) (hc0 : ¬cond0_0 i) (hc1 : cond0_1 i)
    (x0 : Vec F S16x1024 .bf16) (x1 : Vec F S128x1792 .i32) (x2 : Vec F S8x1792 .bf16) (xs0 : Vec F S16x1792 .f32) :
    out0_C_3 c i arg2 harg2 arg3 harg3 arg4 harg4 arg5 harg5 arg6 harg6 hc0 hc1 x0 x1 x2 xs0 = update x0 x1 x2 xs0 := by
  unfold out0_C_3
  rw [View.read_writes_eq_canon _ _ _ (cover0_C_3 c i arg2 harg2 arg3 harg3 arg4 harg4 arg5 harg5 arg6 harg6 hc0 hc1 x0 x1 x2 xs0)]
  unfold kernelRun0_C
  dsimp only
  sl_unfold_words
  rw [View.canon_unit_zero hz, View.readCov_unit_zero (S := S16x1792) _ hz]
  simp only [View.readAt_eq_ld, harg2.read_unread, harg3.read_unread, harg4.read_unread, harg6.read_unread,
    View.ld_unit_zero (S := S16x1024) hz, View.ld_unit_zero (S := S128x1792) hz, View.ld_unit_zero (S := S8x1792) hz,
    View.ld_unit_zero (S := S16x1792) hz]

end Cert.Quant.Cases

end
-- ==== Proof.Accum.lean ====
/-
  The region's result array is the product with the unsigned weights.

  Point t = 8 v + u of the grid works on column block v (columns 1792 v … 1792 v + 1791) and contraction block u:
  its three blocks are rows 1024 u … of the packed x, words 128 u … and scale rows 8 u … in those columns. What it
  stores at (a, b) is therefore the old total plus block u's share of the sum at (a, 1792 v + b). By induction along
  the points the running total after point t is the specification's running total after block u; after u = 7 it is the
  whole sum, which the point also copies to the output block, and the sixteen output blocks written at the points
  t = 8 v + 7 tile the result array.
-/
import proofs.«414245_j36223754174464_3_alg».proof.Proof.Gen.KernelIdeal.Frame
import proofs.«414245_j36223754174464_3_alg».proof.Proof.Spec
import proofs.«414245_j36223754174464_3_alg».proof.Proof.Body
import proofs.«414245_j36223754174464_3_alg».proof.Proof.Cases
import proofs.«414245_j36223754174464_3_alg».proof.Proof.HostPre
import Idealize.ShloMosaic.Lib.Pipeline.Value

set_option maxRecDepth 16384

noncomputable section

open scoped BigOperators

namespace Cert.Quant.Kernel

open Idealize.ShloMosaic Idealize.ShloMosaic.TcCoe Idealize.ShloMosaic.ValueIdx Cert.KernelIdeal Cert.KernelIdeal.Gen
open Cert.Quant Cert.Quant.Host
open Idealize.SL Idealize.SL.Sem
open Idealize.ShloMosaic.Pipeline (Dat)

variable (m : (ℓ : Loc nD τ sig) → Buf (Elt Ideal) ℓ)

/-- Where each window's block sits at point t, decided over the 128 points: the x block moves along the contraction
    with t mod 8; the word and scale blocks move with (t mod 8, t / 8); the output block with t / 8. -/
theorem idx_facts : ∀ t : Fin cfg0.N,
    win0_0.index t (0 : Fin 2) = 0 ∧ win0_0.index t (1 : Fin 2) = t.val % 8
    ∧ win0_1.index t (0 : Fin 2) = t.val % 8 ∧ win0_1.index t (1 : Fin 2) = t.val / 8
    ∧ win0_2.index t (0 : Fin 2) = t.val % 8 ∧ win0_2.index t (1 : Fin 2) = t.val / 8
    ∧ win0_3.index t (0 : Fin 2) = 0 ∧ win0_3.index t (1 : Fin 2) = t.val / 8 :=
  (by decide +kernel : ∀ t : Fin grid0.N, _)

theorem point_lt (t : Fin cfg0.N) : t.val < 128 := lt_of_lt_of_eq t.isLt N_0

/-- The column of the result that column b of point n's blocks is. -/
def col (n : ℕ) (h : n < cfg0.N) (b : Fin 1792) : Fin 28672 :=
  ⟨n / 8 * 1792 + b.val, by have : n < 128 := lt_of_lt_of_eq h N_0; have := b.isLt; omega⟩

/-- The point's three input blocks. -/
abbrev xblk (c : Dev nD) (t : Fin cfg0.N) : Vec Ideal S16x1024 .bf16 := iblk m c 0 t
abbrev qblk (c : Dev nD) (t : Fin cfg0.N) : Vec Ideal S128x1792 .i32 := iblk m c 1 t
abbrev sblk (c : Dev nD) (t : Fin cfg0.N) : Vec Ideal S8x1792 .bf16 := iblk m c 2 t

/-- The x block at point t holds positions 1024 (t mod 8) … of the packed rows. -/
theorem xblk_apply (c : Dev nD) (t : Fin cfg0.N) (a : Fin 16) (k' : Fin 1024) :
    xblk m c t (ix2 a k')
      = (V m c main_v8 : S16x8192.Idx → EReal)
          (ix2 a (⟨t.val % 8 * 1024 + k'.val, by have := k'.isLt; omega⟩ : Fin 8192)) := by
  obtain ⟨e0, e1, -⟩ := idx_facts t
  unfold xblk iblk
  rw [View.read_apply]
  show V m c main_v8 _ = V m c main_v8 _
  congr 1
  funext d
  apply Fin.ext
  match d with
  | ⟨0, _⟩ => show win0_0.index t 0 * 16 + 1 * a.val = a.val; rw [e0]; omega
  | ⟨1, _⟩ => show win0_0.index t 1 * 1024 + 1 * k'.val = t.val % 8 * 1024 + k'.val; rw [e1]; omega

/-- The word block at point t holds word rows 128 (t mod 8) … in the point's columns. -/
theorem qblk_apply (c : Dev nD) (t : Fin cfg0.N) (r : Fin 128) (b : Fin 1792) :
    qblk m c t (ix2 r b)
      = (V m c main_arg1 : S1024x28672.Idx → BitVec 32)
          (ix2 (⟨t.val % 8 * 128 + r.val, by have := r.isLt; omega⟩ : Fin 1024) (col t.val t.isLt b)) := by
  obtain ⟨-, -, e0, e1, -⟩ := idx_facts t
  unfold qblk iblk
  rw [View.read_apply]
  show V m c main_arg1 _ = V m c main_arg1 _
  congr 1
  funext d
  apply Fin.ext
  match d with
  | ⟨0, _⟩ => show win0_1.index t 0 * 128 + 1 * r.val = t.val % 8 * 128 + r.val; rw [e0]; omega
  | ⟨1, _⟩ => show win0_1.index t 1 * 1792 + 1 * b.val = t.val / 8 * 1792 + b.val; rw [e1]; omega

/-- The scale block at point t holds scale rows 8 (t mod 8) … in the point's columns. -/
theorem sblk_apply (c : Dev nD) (t : Fin cfg0.N) (g : Fin 8) (b : Fin 1792) :
    sblk m c t (ix2 g b)
      = (V m c main_v9 : S64x28672.Idx → EReal)
          (ix2 (⟨t.val % 8 * 8 + g.val, by have := g.isLt; omega⟩ : Fin 64) (col t.val t.isLt b)) := by
  obtain ⟨-, -, -, -, e0, e1, -⟩ := idx_facts t
  unfold sblk iblk
  rw [View.read_apply]
  show V m c main_v9 _ = V m c main_v9 _
  congr 1
  funext d
  apply Fin.ext
  match d with
  | ⟨0, _⟩ => show win0_2.index t 0 * 8 + 1 * g.val = t.val % 8 * 8 + g.val; rw [e0]; omega
  | ⟨1, _⟩ => show win0_2.index t 1 * 1792 + 1 * b.val = t.val / 8 * 1792 + b.val; rw [e1]; omega

/-- WHAT A POINT ADDS: the value point t stores over an old total acc is, at (a, b), acc plus block t mod 8's share
    of the sum at (a, the point's column b). -/
theorem update_apply (c : Dev nD) (t : Fin cfg0.N) (acc : Vec Ideal S16x1792 .f32) (a : Fin 16) (b : Fin 1792) :
    Cases.update (xblk m c t) (qblk m c t) (sblk m c t) acc (ix2 a b)
      = acc (ix2 a b) + blockSumN (argX m c) (argQ m c) (argS m c) a (col t.val t.isLt b) (t.val % 8) := by
  refine (Body.stored_apply _ _ _ _ a b).trans ?_
  refine congrArg (acc (ix2 a b) + ·) ?_
  unfold blockSumN
  rw [dif_pos (Nat.mod_lt _ (by decide))]
  unfold blockSum
  refine Finset.sum_congr rfl fun k' _ => ?_
  have hk := k'.isLt
  have ht := Nat.mod_lt t.val (show 0 < 8 by decide)
  rw [xblk_apply, qblk_apply, sblk_apply, packed_apply m c a ⟨t.val % 8, ht⟩ k', words_eq, scales_eq]
  unfold term weight wordOf scaleOf
  have hw : (⟨t.val % 8 * 128 + k'.val % 128, by omega⟩ : Fin 1024)
      = ⟨(packedRow ⟨t.val % 8, ht⟩ k').val / 8, by have := (packedRow ⟨t.val % 8, ht⟩ k').isLt; omega⟩ :=
    Fin.ext (by show t.val % 8 * 128 + k'.val % 128 = (t.val % 8 * 1024 + k'.val % 128 * 8 + k'.val / 128) / 8; omega)
  have hf : k'.val / 128 = (packedRow ⟨t.val % 8, ht⟩ k').val % 8 := by
    show k'.val / 128 = (t.val % 8 * 1024 + k'.val % 128 * 8 + k'.val / 128) % 8; omega
  have hs : (⟨t.val % 8 * 8 + k'.val % 128 / 16, by omega⟩ : Fin 64)
      = ⟨(packedRow ⟨t.val % 8, ht⟩ k').val / 128, by have := (packedRow ⟨t.val % 8, ht⟩ k').isLt; omega⟩ :=
    Fin.ext (by show t.val % 8 * 8 + k'.val % 128 / 16 = (t.val % 8 * 1024 + k'.val % 128 * 8 + k'.val / 128) / 128; omega)
  rw [hw, hf, hs]

/-- The zero block a run's first point starts from. -/
theorem zero_apply (i : S16x1792.Idx) : (k0_pay2 (F := Ideal)) i = 0 := by
  show Ideal.ofBits .f32 0x00000000#32 = 0
  exact Ideal.ofBits_zero_f32

/-- THE RUNNING TOTAL: after point n the carried total holds, at (a, b), the specification's running total after
    block n mod 8 at (a, the point's column b). -/
theorem total_eq (c : Dev nD) : ∀ (n : ℕ) (h : n < cfg0.N) (a : Fin 16) (b : Fin 1792),
    (outsAt0 m c n h).2 (ix2 a b)
      = running (argX m c) (argQ m c) (argS m c) a (col n h b) (n % 8)
  | 0, h, a, b => by
    rw [outsAt0_A m c ⟨0, h⟩ rfl (by dsimp only; omega)]
    dsimp only
    rw [Cases.sout_A]
    refine (update_apply m c ⟨0, h⟩ _ a b).trans ?_
    rw [zero_apply]
    rfl
  | n + 1, h, a, b => by
    have hN : n + 1 < 128 := lt_of_lt_of_eq h N_0
    by_cases h0 : (n + 1) % 8 = 0
    · have h1 : ¬(n + 1) % 8 = 7 := by omega
      rw [outsAt0_A m c ⟨n + 1, h⟩ h0 h1]
      dsimp only
      rw [Cases.sout_A]
      refine (update_apply m c ⟨n + 1, h⟩ _ a b).trans ?_
      rw [zero_apply]
      show 0 + blockSumN _ _ _ a (col (n + 1) h b) ((n + 1) % 8) = running _ _ _ a (col (n + 1) h b) ((n + 1) % 8)
      rw [h0]
      rfl
    · have ih := total_eq c n (Nat.lt_of_succ_lt h) a b
      have hcol : col n (Nat.lt_of_succ_lt h) b = col (n + 1) h b :=
        Fin.ext (by show n / 8 * 1792 + b.val = (n + 1) / 8 * 1792 + b.val; omega)
      have hmod : (n + 1) % 8 = n % 8 + 1 := by omega
      have hstep : (outsAt0 m c n (Nat.lt_of_succ_lt h)).2 (ix2 a b)
            + blockSumN (argX m c) (argQ m c) (argS m c) a (col (n + 1) h b) ((n + 1) % 8)
          = running (argX m c) (argQ m c) (argS m c) a (col (n + 1) h b) ((n + 1) % 8) := by
        rw [ih, hcol, hmod]
        rfl
      by_cases h1 : (n + 1) % 8 = 7
      · rw [outsAt0_C m c ⟨n + 1, h⟩ h0 h1]
        dsimp only
        rw [Cases.sout_C]
        exact (update_apply m c ⟨n + 1, h⟩ _ a b).trans hstep
      · rw [outsAt0_B m c ⟨n + 1, h⟩ h0 h1]
        dsimp only
        rw [Cases.sout_B]
        exact (update_apply m c ⟨n + 1, h⟩ _ a b).trans hstep

/-- At a run's last point the output block holds what the carried total holds. -/
theorem out_eq_total (c : Dev nD) (t : Fin cfg0.N) (h7 : t.val % 8 = 7) :
    (outsAt0 m c t.val t.isLt).1 = (outsAt0 m c t.val t.isLt).2 := by
  have h0 : ¬t.val % 8 = 0 := by omega
  rw [outsAt0_C m c t h0 h7]
  dsimp only
  rw [Cases.out_C, Cases.sout_C]

/-- The product with the unsigned weights, as an array. -/
def mainArr (c : Dev nD) : S16x28672.Idx → EReal := fun j => mainSum (argX m c) (argQ m c) (argS m c) (j 0) (j 1)

/-- So at a run's last point the output block holds the whole sum at the point's columns. -/
theorem out_apply (c : Dev nD) (t : Fin cfg0.N) (h7 : t.val % 8 = 7) (y : S16x1792.Idx) :
    (outsAt0 m c t.val t.isLt).1 y = mainSum (argX m c) (argQ m c) (argS m c) (y 0) (col t.val t.isLt (y 1)) := by
  rw [out_eq_total m c t h7]
  refine (congrArg (outsAt0 m c t.val t.isLt).2 (eq_ix2 y)).trans ?_
  refine (total_eq m c t.val t.isLt (y 0) (y 1)).trans ?_
  rw [h7]
  exact running_last _ _ _ _ _

/-- WHAT A RUN'S LAST POINT WRITES BACK is its block of the product array. -/
theorem flushed_eq (c : Dev nD) (t : Fin cfg0.N) (hf : (cfg0.win 3).flush t = true) :
    (dats m 0 c).flushed 3 t = ((cfg0.win 3).blk t).view.read (Elt Ideal) (mainArr m c) := by
  have h7 : t.val % 8 = 7 := (flush0_3 t).mp hf
  obtain ⟨-, -, -, -, -, -, e0, e1⟩ := idx_facts t
  show (cfg0.win 3).cut (grid0.coords t) ((dats m 0 c).after 3 t) = _
  rw [after0_3]
  funext y
  show (outsAt0 m c t.val t.isLt).1 (win0_3.xinj (grid0.coords t) y) = mainArr m c (((cfg0.win 3).blk t).view.emb y)
  rw [out_apply m c t h7 (win0_3.xinj (grid0.coords t) y)]
  show mainSum (argX m c) (argQ m c) (argS m c) _ _ = mainSum (argX m c) (argQ m c) (argS m c) _ _
  refine congrArg₂ (mainSum (argX m c) (argQ m c) (argS m c)) (Fin.ext ?_) (Fin.ext ?_)
  · show (y 0).val = win0_3.index t 0 * 16 + 1 * (y 0).val
    rw [e0]; omega
  · show t.val / 8 * 1792 + (y 1).val = win0_3.index t 1 * 1792 + 1 * (y 1).val
    rw [e1]; omega

/-- An index of the result array is in point t's output block iff each coordinate is in the block's range. -/
theorem mem_blk (t : Fin cfg0.N) (i : S16x28672.Idx) :
    i ∈ ((cfg0.win 3).blk t).view.set
      ↔ ∀ a : Fin 2, win0_3.index t a * S16x1792.size a ≤ (i a).val ∧ (i a).val < win0_3.index t a * S16x1792.size a + S16x1792.size a := by
  show i ∈ ((View.whole main_v10).slice (win0_3.rect t)).set ↔ _
  rw [View.set_slice_whole, Rect.mem_set_unit]
  exact Iff.rfl

/-- Column n of the result lies in the block written at the last point of column block n / 1792. -/
theorem cover (i : S16x28672.Idx) :
    ∃ t : Fin cfg0.N, (cfg0.win 3).flush t = true ∧ i ∈ ((cfg0.win 3).blk t).view.set := by
  have hi0 : (i 0).val < 16 := (i 0).isLt
  have hi1 : (i 1).val < 28672 := (i 1).isLt
  have hN : cfg0.N = 128 := N_0
  let t : Fin cfg0.N := ⟨(i 1).val / 1792 * 8 + 7, by rw [hN]; omega⟩
  have htv : t.val = (i 1).val / 1792 * 8 + 7 := rfl
  obtain ⟨-, -, -, -, -, -, e0, e1⟩ := idx_facts t
  refine ⟨t, (flush0_3 t).mpr (by rw [htv]; omega), ?_⟩
  rw [mem_blk]
  intro a
  match a with
  | ⟨0, _⟩ =>
    show win0_3.index t 0 * 16 ≤ (i 0).val ∧ (i 0).val < win0_3.index t 0 * 16 + 16
    rw [e0]; omega
  | ⟨1, _⟩ =>
    show win0_3.index t 1 * 1792 ≤ (i 1).val ∧ (i 1).val < win0_3.index t 1 * 1792 + 1792
    rw [e1, htv]; omega

/-- THE REGION'S RESULT ARRAY after the run is the product with the unsigned weights. -/
theorem final (c : Dev nD) : (dats m 0 c).arrAt 3 cfg0.N = mainArr m c :=
  (dats m 0 c).arrAt_eq_of_cover 3 (mainArr m c) (flushed_eq m c) (cover)

end Cert.Quant.Kernel

end
-- ==== Proof.Result.lean ====
/-
  The kernel program's run, with its result named: it ends at G.

  The region leaves the product with the unsigned weights in its result array. Before the region the host computed
  the offset term: the run sums of x (a reshape to runs of 128 and a sum along the run, from zero) contracted with the
  scales, times 8. After the region the host subtracts the offset term from the region's result. Entry by entry that
  difference is G.
-/
import proofs.«414245_j36223754174464_3_alg».proof.Proof.Gen.KernelIdeal.Frame
import proofs.«414245_j36223754174464_3_alg».proof.Proof.Spec
import proofs.«414245_j36223754174464_3_alg».proof.Proof.LibDense
import proofs.«414245_j36223754174464_3_alg».proof.Proof.HostPre
import proofs.«414245_j36223754174464_3_alg».proof.Proof.Accum
import Idealize.ShloMosaic.Lib.Pipeline.Value
import Idealize.ShloMosaic.Lib.StableHlo.Run
import Idealize.ShloMosaic.Lib.IdealHost
import Idealize.ShloMosaic.PureOps.Ideal.Laws

set_option maxRecDepth 16384

noncomputable section

open scoped BigOperators

namespace Cert.Quant.Result

open Idealize.ShloMosaic Idealize.ShloMosaic.TcCoe Idealize.ShloMosaic.ValueIdx Cert.KernelIdeal Cert.KernelIdeal.Gen
open Cert.Quant Cert.Quant.Host Cert.Quant.Kernel
open Idealize.SL Idealize.SL.Sem
open Idealize.ShloMosaic.Pipeline (Dat)

variable (m : (ℓ : Loc nD τ sig) → Buf (Elt Ideal) ℓ) (ρ : Dev nD → PrngReg)

/-- Summing a (16, 64, 128) array along its last axis leaves a (16, 64) array. -/
theorem sumsRuns : Shape.Reduces S16x64x128 [2] S16x64 := by decide

/-- The host's run sums: entry (a, g) of the reduced array is the sum of row a of x over run g (the sum starts from
    zero). -/
theorem runs_apply (c : Dev nD) (a : Fin 16) (g : Fin 64) :
    Host.reduceAdd (F := Ideal) (shapeCast S16x64x128 (argX m c) Gen.shapeCasts_S16x8192_S16x64x128)
        (constant (F := Ideal) S_ .f32 0x00000000#32) Gen.reducesTo_S16x64x128_S16x64_d2 Gen.h_S_ (ix2 a g)
      = runSum (argX m c) a g := by
  have ha := a.isLt; have hg := g.isLt
  rw [hostReduceAdd_apply, Ideal.hostReduceAdd_single Gen.reducesTo_S16x64x128_S16x64_d2 sumsRuns]
  show Ideal.ofBits .f32 0x00000000#32 + _ = _
  rw [Ideal.ofBits_zero_f32, zero_add]
  unfold runSum
  refine Finset.sum_congr rfl fun k _ => ?_
  have hk : k.val < 128 := k.isLt
  exact shapeCast_apply _ Gen.shapeCasts_S16x8192_S16x64x128 _ (ix2 a (⟨g.val * 128 + k.val, by omega⟩ : Fin 8192))
    (by rewrite [Shape.rowMajor_val_three, Shape.rowMajor_val_two]
        show a.val * 8192 + (g.val * 128 + k.val) = (a.val * 64 + g.val) * 128 + k.val; omega)

/-- The offset term at an entry: eight times the run sums of x against the scales. -/
theorem offset_apply (c : Dev nD) (j : S16x28672.Idx) :
    (V m c main_v4 : S16x28672.Idx → EReal) j
      = Ideal.ofBits .f32 0x41000000#32 * offsetSum (argX m c) (argS m c) (j 0) (j 1) := by
  rw [offset_eq, mulf_apply, Cert.Lib.dotGeneral_eq_dense _ rfl rfl rfl rfl rfl rfl, Cert.Lib.dense_apply]
  unfold offsetSum
  refine congrArg₂ (· * ·) rfl (Finset.sum_congr rfl fun g _ => ?_)
  exact congrArg (· * _) (runs_apply m c (j 0) g)

/-- After the region the host's one operation leaves, in the program's result, the region's result array less the
    offset term. -/
theorem tail_eq (c : Dev nD) :
    Pipeline.afterTail₀ cfgs (dats m) 0 (V0 m) [hostOps1] c main_v11
      = subf (F := Ideal) (φ := .f32) (mainArr m c) (V m c main_v4) := by
  unfold Pipeline.afterTail₀
  show StableHlo.after hostOps1 _ (Proc.devRef .tc main_v11) = _
  after_results
  refine congrArg₂ subf ?_ ?_
  · exact (Pipeline.withArrays_arr spec0 launch0.win.arr_inj c _ _ 3).trans (final m c)
  · exact Pipeline.withArrays_of_ne _ c (V0 m c) _ main_v4 (by exact (by decide : ∀ w, Pipeline.arrRef spec0 w ≠ main_v4))

/-- The program's result is G of its arguments. -/
theorem result_eq (c : Dev nD) :
    Pipeline.afterTail₀ cfgs (dats m) 0 (V0 m) [hostOps1] c main_v11 = G (argX m c) (argQ m c) (argS m c) := by
  rw [tail_eq]
  funext j
  rw [subf_apply, offset_apply]
  rfl

/-- THE RUN: every weakly fair execution of the kernel program terminates with its result at G of the arguments and
    the arguments unchanged. -/
theorem run : θ_run defs (onTc (τ := τ) (main (F := Ideal))) ⟨m, fun _ => 0, ρ⟩ fun r => ∀ c : Dev nD,
      r.2.mem ((c.tc : Thread nD τ).loc main_v11) = G (argX m c) (argQ m c) (argS m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v11 (Pipeline.mem_restRefs_of main_v11 (by decide) (by decide))).trans (result_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c)⟩)
    (run_main m ρ)

end Cert.Quant.Result

end
-- ==== Proof.lean ====
/-
  A linear layer with weights packed four bits at a time and one scale per run of 128 rows, computed two ways.

  Both programs take x (16 × 8192), the packed weights (1024 × 28672 words, eight 4-bit fields each: row k of the
  8192 × 28672 weight matrix is field k mod 8 of word k / 8) and the scales (64 × 28672, row k / 128 serves row k),
  and return the 16 × 28672 product of x with the matrix whose entry (k, n) is (field − 8) · scale.

  The reference forms that matrix and contracts. The kernel never takes the 8 off: blocked eight ways along the
  contraction and sixteen ways along the columns, with the rows of each block visited field by field, it accumulates
  x times (field · scale) from zero, and the host subtracts 8 · (run sums of x) · scales afterwards. On the extended
  reals the kernel's value is the function G of the specification for any inputs — reordering and regrouping a sum
  is commutativity and associativity of addition. The reference's value is G only where x and the scales are real
  numbers, since x · ((f − 8) · s) = x · (f · s) − 8 · x · s and pulling 8 · s out of a run's sum fail at the
  infinities; the precondition gives exactly that. The rewriting pass changed no operation of the kernel, so the
  claim about it is trivial; each program's frame is its run with the result forgotten.
-/
import proofs.«414245_j36223754174464_3_alg».proof.Defs
import proofs.«414245_j36223754174464_3_alg».proof.Proof.Gen.Kernel
import proofs.«414245_j36223754174464_3_alg».proof.Proof.Gen.Kernel.Skeleton
import proofs.«414245_j36223754174464_3_alg».proof.Proof.Gen.Kernel.Launch
import proofs.«414245_j36223754174464_3_alg».proof.Proof.Gen.Kernel.Points
import proofs.«414245_j36223754174464_3_alg».proof.Proof.Gen.Kernel.Frame
import proofs.«414245_j36223754174464_3_alg».proof.Proof.Gen.KernelIdeal
import proofs.«414245_j36223754174464_3_alg».proof.Proof.Gen.KernelIdeal.Skeleton
import proofs.«414245_j36223754174464_3_alg».proof.Proof.Gen.KernelIdeal.Launch
import proofs.«414245_j36223754174464_3_alg».proof.Proof.Gen.KernelIdeal.Points
import proofs.«414245_j36223754174464_3_alg».proof.Proof.Gen.KernelIdeal.Frame
import proofs.«414245_j36223754174464_3_alg».proof.Proof.Gen.ReferenceIdeal
import proofs.«414245_j36223754174464_3_alg».proof.Proof.Gen.ReferenceIdeal.Run
import proofs.«414245_j36223754174464_3_alg».proof.Proof.Gen.ReferenceIdeal.Read
import proofs.«414245_j36223754174464_3_alg».proof.Proof.Gen.Pre_finite_inputs
import proofs.«414245_j36223754174464_3_alg».proof.Proof.Spec
import proofs.«414245_j36223754174464_3_alg».proof.Proof.RefIsG
import proofs.«414245_j36223754174464_3_alg».proof.Proof.Finite
import proofs.«414245_j36223754174464_3_alg».proof.Proof.Result
import Idealize.ShloMosaic.Adequacy
import Idealize.ShloMosaic.Init

noncomputable section

namespace Cert.Proof

open Idealize.ShloMosaic Idealize.SL.Sem Cert.Kernel

/-- The word-level kernel runs and leaves its arguments alone. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference is host operations only: its frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- No operation of the kernel was rewritten. -/
theorem preserves : Cert.preserves_Kernel_KernelIdeal := trivial

/-- Both programs end at G of the kernel's arguments: the kernel for any inputs, the reference because the
    precondition makes x and the scales real-valued, where its plain form of the layer is G. -/
theorem algebraic : Cert.algebraic_KernelIdeal_ReferenceIdeal := by
  intro m ρ m' ρ' hpre hagree
  refine ⟨fun c => Cert.Quant.G (Cert.Quant.Host.argX m c) (Cert.Quant.Host.argQ m c) (Cert.Quant.Host.argS m c),
    Cert.Quant.Result.run m ρ, ?_⟩
  refine (θ_run Cert.ReferenceIdeal.defs _ _).mono (fun _ h c => ⟨(h c).1.trans ?_, (h c).2⟩)
    (Cert.ReferenceIdeal.Value.run (F := Ideal) m' ρ')
  obtain ⟨hx, hs⟩ := Cert.Quant.Finite.real_of_pre _ _ _ (hpre c)
  rw [(hagree c).1, (hagree c).2.1, (hagree c).2.2, Cert.ReferenceIdeal.Read.val_main_v17_eq]
  exact Cert.Quant.Reference.result_eq_G _ _ _ hx hs

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
